-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S2x512x512 : Shape := ⟨3, ![2, 512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x128 .f32) (main_arg7 : FVec F S128 .f32) (main_arg8 : FVec F S128x1 .f32) (main_arg9 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S2x512x256 .f32) (main_arg1 : FVec F S2x512x256 .f32) (main_arg2 : FVec F S2x512x256 .f32) (main_arg3 : IVec S2x512x512 32) (main_arg4 : FVec F S512x256 .f32) (main_arg5 : FVec F S256 .f32) (main_arg6 : FVec F S256x128 .f32) (main_arg7 : FVec F S128 .f32) (main_arg8 : FVec F S128x1 .f32) (main_arg9 : FVec F S1 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S2x512x256 .f32 := Host.absf main_arg1
  let main_cst_0 : FVec F S_ .f32 := constant S_ .f32 0x7F800000#32
  let main_v5 : FVec F S2x512x256 .f32 := broadcastInDim S2x512x256 ![] bcast_S_S2x512x256 main_cst_0
  let main_v6 : IVec S2x512x256 1 := cmpf .olt main_v4 main_v5
  let main_c_1 : IVec S_ 1 := constantI S_ 1 1#1
  let main_v7 : IVec S_ 1 := (fun x v => Host.reduce IntOp.andi x v reducesTo_S2x512x256_S_d0_1_2 h_S_) main_v6 main_c_1
  let main_v8 : IVec S_ 1 := andi main_v3 main_v7
  let main_v9 : FVec F S2x512x256 .f32 := Host.absf main_arg2
  let main_cst_2 : FVec F S_ .f32 := constant S_ .f32 0x7F800000#32
  let main_v10 : FVec F S2x512x256 .f32 := broadcastInDim S2x512x256 ![] bcast_S_S2x512x256 main_cst_2
  let main_v11 : IVec S2x512x256 1 := cmpf .olt main_v9 main_v10
  let main_c_3 : IVec S_ 1 := constantI S_ 1 1#1
  let main_v12 : IVec S_ 1 := (fun x v => Host.reduce IntOp.andi x v reducesTo_S2x512x256_S_d0_1_2 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S2x512x256 : Shape := ⟨3, ![2, 512, 256]⟩
abbrev S2x512x512 : Shape := ⟨3, ![2, 512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S1x256 : Shape := ⟨2, ![1, 256]⟩
abbrev S1x128 : Shape := ⟨2, ![1, 128]⟩
abbrev S1x1 : Shape := ⟨2, ![1, 1]⟩
abbrev S1x128x256 : Shape := ⟨3, ![1, 128, 256]⟩
abbrev S1x512x256 : Shape := ⟨3, ![1, 512, 256]⟩
abbrev S1x128x512 : Shape := ⟨3, ![1, 128, 512]⟩
abbrev S128x512 : Shape := ⟨2, ![128, 512]⟩
abbrev S128x256 : Shape := ⟨2, ![128, 256]⟩
abbrev S1x1x128 : Shape := ⟨3, ![1, 1, 128]⟩
abbrev S128x1x256 : Shape := ⟨3, ![128, 1, 256]⟩
abbrev S128x128x256 : Shape := ⟨3, ![128, 128, 256]⟩
abbrev S16384x256 : Shape := ⟨2, ![16384, 256]⟩
abbrev S16384x128 : Shape := ⟨2, ![16384, 128]⟩
abbrev S128x128x128 : Shape := ⟨3, ![128, 128, 128]⟩
abbrev S128x128 : Shape := ⟨2, ![128, 128]⟩

abbrev nBuf : Space → Nat
  | .hbm => 18
  | .vmem => 21
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x512, .i32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S256x256, .f32⟩
  | .hbm, ⟨11, _⟩ => ⟨S256x256, .f32⟩
  | .hbm, ⟨12, _⟩ => ⟨S1x256, .f32⟩
  | .hbm, ⟨13, _⟩ => ⟨S1x128, .f32⟩
  | .hbm, ⟨14, _⟩ => ⟨S1x1, .f32⟩
  | .hbm, ⟨15, _⟩ => ⟨S1x128, .f32⟩
  | .hbm, ⟨16, _⟩ => ⟨S2x512x256, .f32⟩
  | .hbm, ⟨17, _⟩ => ⟨S2x512x512, .f32⟩
  | .local _ .vmem, ⟨0, _⟩ => ⟨S1x128x256, .f32⟩
  | .local _ .vmem, ⟨1, _⟩ => ⟨S1x128x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x128x512, .i32⟩
  | .local _ .vmem, ⟨7, _⟩ => ⟨S1x128x512, .i32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S1x128, .f32⟩
  | .local _ .vmem, ⟨12, _⟩ => ⟨S1x256, .f32⟩
  | .local _ .vmem, ⟨13, _⟩ => ⟨S1x128, .f32⟩
  | .local _ .vmem, ⟨14, _⟩ => ⟨S1x1, .f32⟩
  | .local _ .vmem, ⟨15, _⟩ => ⟨S1x128x256, .f32⟩
  | .local _ .vmem, ⟨16, _⟩ => ⟨S1x128x256, .f32⟩
  | .local _ .vmem, ⟨17, _⟩ => ⟨S1x128x512, .f32⟩
  | .local _ .vmem, ⟨18, _⟩ => ⟨S1x128x512, .f32⟩
  | .local _ .vmem, ⟨19, _⟩ => ⟨S128x512, .f32⟩
  | .local _ .vmem, ⟨20, _⟩ => ⟨S512x256, .bf16⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c128_i32 : BitVec 32 := 128#32
  let v32 : BitVec 32 := Scalar.muli c0_i32 c128_i32
  v32
def k0_off1 (c0_i32 : BitVec 32) : Fin 2 → Nat :=
  let c128_i32 : BitVec 32 := 128#32
  let v32 : BitVec 32 := Scalar.muli c0_i32 c128_i32
  let v33 : BitVec 32 := v32
  let v34 : Index := Scalar.indexCast v33
  let c0_22 : Index := 0#32
  ![v34.toNat, 0]
def k0_off2 (c0_i32 : BitVec 32) : Fin 2 → Nat :=
  let c0_27 : Index := 0#32
  let c128_i32 : BitVec 32 := 128#32
  let v32 : BitVec 32 := Scalar.muli c0_i32 c128_i32
  let v33 : BitVec 32 := v32
  let v55 : Index := Scalar.indexCast v33
  ![0, v55.toNat]
def k0_mult2 : BitVec 32 :=
  let c1_i32 : BitVec 32 := 1#32
  let c128_i32_28 : BitVec 32 := 128#32
  let v59 : BitVec 32 := Scalar.muli c1_i32 c128_i32_28
  v59
def k0_mult3 : BitVec 32 :=
  let c2_i32 : BitVec 32 := 2#32
  let c128_i32_35 : BitVec 32 := 128#32
  let v86 : BitVec 32 := Scalar.muli c2_i32 c128_i32_35
  v86
def k0_mult4 : BitVec 32 :=
  let c3_i32 : BitVec 32 := 3#32
  let c128_i32_42 : BitVec 32 := 128#32
  let v113 : BitVec 32 := Scalar.muli c3_i32 c128_i32_42
  v113
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  slices_S512x256_S256x256_0_0 : S512x256.Slices ![0, 0] S256x256
  slices_S512x256_S256x256_256_0 : S512x256.Slices ![256, 0] S256x256
  shapeCasts_S256_S1x256 : S256.ShapeCasts S1x256
  shapeCasts_S128_S1x128 : S128.ShapeCasts S1x128
  shapeCasts_S1_S1x1 : S1.ShapeCasts S1x1
  shapeCasts_S128x1_S1x128 : S128x1.ShapeCasts S1x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  shapeCasts_S1x128_S1x1x128 : S1x128.ShapeCasts S1x1x128
  broadcasts_S1x256_S128x256 : S1x256.Broadcasts S128x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  h_S128x256 : 0 < S128x256.numel
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  shapeCasts_S128x128x256_S16384x256 : S128x128x256.ShapeCasts S16384x256
  broadcasts_S1x128_S16384x128 : S1x128.Broadcasts S16384x128
  shapeCasts_S16384x128_S128x128x128 : S16384x128.ShapeCasts S128x128x128
  broadcasts_S1x1x128_S128x128x128 : S1x1x128.Broadcasts S128x128x128
  reduces_S128x128x128_S128x128 : S128x128x128.Reduces [2] S128x128
  broadcasts_S1x1_S128x128 : S1x1.Broadcasts S128x128
  h_S128x128 : 0 < S128x128.numel
  shapeCasts_S128x128_S128x128 : S128x128.ShapeCasts S128x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  broadcasts_S128x1_S128x512 : S128x1.Broadcasts S128x512
  shapeCasts_S128x512_S1x128x512 : S128x512.ShapeCasts S1x128x512
  dot_S128x256_S256x256_S128x256_1_0_0_1_n_n_wf : DotDims.WF S128x256 S256x256 S128x256 [1] [0] [0] [1] [] []
  dot_S512x256_S256x256_S512x256_1_0_0_1_n_n_wf : DotDims.WF S512x256 S256x256 S512x256 [1] [0] [0] [1] [] []
  dot_S16384x256_S256x128_S16384x128_1_0_0_1_n_n_wf : DotDims.WF S16384x256 S256x128 S16384x128 [1] [0] [0] [1] [] []
  dot_S128x512_S512x256_S128x256_1_0_0_1_n_n_wf : DotDims.WF S128x512 S512x256 S128x256 [1] [0] [0] [1] [] []
  hrank0 : 0 < grid0.rank
  k0_mult1_dvd : 128 ∣ k0_mult1.toNat
  k0_off1_inb : ∀ (r : Fin 4), ∀ a, (k0_off1 (BitVec.ofNat 32 r.val)) a + S128x256.size a ≤ S512x256.size a
  k0_off2_inb : ∀ (r : Fin 4), ∀ a, (k0_off2 (BitVec.ofNat 32 r.val)) a + S128x128.size a ≤ S128x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x512x256.size a
  hwx0_0 : ∀ i : grid0.Coords, EltTy.bits .f32 = 32 ∨ (Rect.block (s := S2x512x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S2x512x256.size a
  hwx0_1 : ∀ i : grid0.Coords, EltTy.bits .f32 = 32 ∨ (Rect.block (s := S2x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S2x512x512.size a
  hwx0_3 : ∀ i : grid0.Coords, EltTy.bits .i32 = 32 ∨ (Rect.block (s := S2x512x512) S1x128x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x256.size a ≤ S2x512x256.size a
  hwx0_11 : ∀ i : grid0.Coords, EltTy.bits .f32 = 32 ∨ (Rect.block (s := S2x512x256) S1x128x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x512.size a ≤ S2x512x512.size a
  hwx0_12 : ∀ i : grid0.Coords, EltTy.bits .f32 = 32 ∨ (Rect.block (s := S2x512x512) S1x128x512.size (cc0_transform_12 i) (hinb0_12 i)).WholeWords (EltTy.packing .f32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S1x128x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S1x128x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x512x256 : Shape := ⟨3, ![2, 512, 256]⟩
abbrev S2x512x512 : Shape := ⟨3, ![2, 512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S2x512x1x256 : Shape := ⟨4, ![2, 512, 1, 256]⟩
abbrev S2x1x512x256 : Shape := ⟨4, ![2, 1, 512, 256]⟩
abbrev S2x512x512x256 : Shape := ⟨4, ![2, 512, 512, 256]⟩
abbrev S1x1x1x256 : Shape := ⟨4, ![1, 1, 1, 256]⟩
abbrev S_ : Shape := ⟨0, ![]⟩
abbrev S2x512x512x128 : Shape := ⟨4, ![2, 512, 512, 128]⟩
abbrev S1x1x1x128 : Shape := ⟨4, ![1, 1, 1, 128]⟩
abbrev S2x512x512x1 : Shape := ⟨4, ![2, 512, 512, 1]⟩
abbrev S1x1x1x1 : Shape := ⟨4, ![1, 1, 1, 1]⟩
abbrev S2x512 : Shape := ⟨2, ![2, 512]⟩
abbrev S2x512x1 : Shape := ⟨3, ![2, 512, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x512, .i32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S256x256, .f32⟩
  | .hbm, ⟨11, _⟩ => ⟨S256x256, .f32⟩
  | .hbm, ⟨12, _⟩ => ⟨S2x512x256, .f32⟩
  | .hbm, ⟨13, _⟩ => ⟨S2x512x256, .f32⟩
  | .hbm, ⟨14, _⟩ => ⟨S2x512x1x256, .f32⟩
  | .hbm, ⟨15, _⟩ => ⟨S2x1x512x256, .f32⟩
  | .hbm, ⟨16, _⟩ => ⟨S2x512x512x256, .f32⟩
  | .hbm, ⟨17, _⟩ => ⟨S2x512x512x256, .f32⟩
  | .hbm, ⟨18, _⟩ => ⟨S2x512x512x256, .f32⟩
  | .hbm, ⟨19, _⟩ => ⟨S1x1x1x256, .f32⟩
  | .hbm, ⟨20, _⟩ => ⟨S2x512x512x256, .f32⟩
  | .hbm, ⟨21, _⟩ => ⟨S2x512x512x256, .f32⟩
  | .hbm, ⟨22, _⟩ => ⟨S_, .f32⟩
  | .hbm, ⟨23, _⟩ => ⟨S2x512x512x256, .f32⟩
  | .hbm, ⟨24, _⟩ => ⟨S2x512x512x256, .f32⟩
  | .hbm, ⟨25, _⟩ => ⟨S2x512x512x128, .f32⟩
  | .hbm, ⟨26, _⟩ => ⟨S1x1x1x128, .f32⟩
  | .hbm, ⟨27, _⟩ => ⟨S2x512x512x128, .f32⟩
  | .hbm, ⟨28, _⟩ => ⟨S2x512x512x128, .f32⟩
  | .hbm, ⟨29, _⟩ => ⟨S_, .f32⟩
  | .hbm, ⟨30, _⟩ => ⟨S2x512x512x128, .f32⟩
  | .hbm, ⟨31, _⟩ => ⟨S2x512x512x128, .f32⟩
  | .hbm, ⟨32, _⟩ => ⟨S2x512x512x1, .f32⟩
  | .hbm, ⟨33, _⟩ => ⟨S1x1x1x1, .f32⟩
  | .hbm, ⟨34, _⟩ => ⟨S2x512x512x1, .f32⟩
  | .hbm, ⟨35, _⟩ => ⟨S2x512x512x1, .f32⟩
  | .hbm, ⟨36, _⟩ => ⟨S2x512x512, .f32⟩
  | .hbm, ⟨37, _⟩ => ⟨S_, .i32⟩
  | .hbm, ⟨38, _⟩ => ⟨S2x512x512, .i32⟩
  | .hbm, ⟨39, _⟩ => ⟨S2x512x512, .i1⟩
  | .hbm, ⟨40, _⟩ => ⟨S_, .f32⟩
  | .hbm, ⟨41, _⟩ => ⟨S2x512x512, .f32⟩
  | .hbm, ⟨42, _⟩ => ⟨S2x512x512, .f32⟩
  | .hbm, ⟨43, _⟩ => ⟨S_, .f32⟩
  | .hbm, ⟨44, _⟩ => ⟨S2x512, .f32⟩
  | .hbm, ⟨45, _⟩ => ⟨S_, .f32⟩
  | .hbm, ⟨46, _⟩ => ⟨S2x512, .f32⟩
  | .hbm, ⟨47, _⟩ => ⟨S2x512, .f32⟩
  | .hbm, ⟨48, _⟩ => ⟨S2x512x1, .f32⟩
  | .hbm, ⟨49, _⟩ => ⟨S2x512x512, .f32⟩
  | .hbm, ⟨50, _⟩ => ⟨S2x512x512, .f32⟩
  | .hbm, ⟨51, _⟩ => ⟨S2x512x512, .f32⟩
  | .hbm, ⟨52, _⟩ => ⟨S_, .f32⟩
  | .hbm, ⟨53, _⟩ => ⟨S2x512, .f32⟩
  | .hbm, ⟨54, _⟩ => ⟨S2x512x1, .f32⟩
  | .hbm, ⟨55, _⟩ => ⟨S2x512x512, .f32⟩
  | .hbm, ⟨56, _⟩ => ⟨S2x512x512, .f32⟩
  | .hbm, ⟨57, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_call2_v0 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  slices_S512x256_S256x256_0_0 : S512x256.Slices ![0, 0] S256x256
  slices_S512x256_S256x256_256_0 : S512x256.Slices ![256, 0] S256x256
  bcast_S2x512x256_S2x512x1x256_0_1_3 : S2x512x256.BroadcastsInDim S2x512x1x256 (![0, 1, 3] : Fin 3 → Fin S2x512x1x256.rank)
  bcast_S2x512x256_S2x1x512x256_0_2_3 : S2x512x256.BroadcastsInDim S2x1x512x256 (![0, 2, 3] : Fin 3 → Fin S2x1x512x256.rank)
  bcast_S2x512x1x256_S2x512x512x256_0_1_2_3 : S2x512x1x256.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  bcast_S_S2x512x512 : S_.BroadcastsInDim S2x512x512 (![] : Fin 0 → Fin S2x512x512.rank)
  reducesTo_S2x512x512_S2x512_d2 : S2x512x512.ReducesTo [2] S2x512
  h_S_ : 0 < S_.numel
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x512_0_1_2 : S2x512x1.BroadcastsInDim S2x512x512 (![0, 1, 2] : Fin 3 → Fin S2x512x512.rank)
  dot_S2x512x256_S256x256_S2x512x256_2_0_01_1_n_n_wf : DotDims.WF S2x512x256 S256x256 S2x512x256 [2] [0] [0, 1] [1] [] []
  dot_S2x512x512x256_S256x128_S2x512x512x128_3_0_012_1_n_n_wf : DotDims.WF S2x512x512x256 S256x128 S2x512x512x128 [3] [0] [0, 1, 2] [1] [] []
  dot_S2x512x512x128_S128x1_S2x512x512x1_3_0_012_1_n_n_wf : DotDims.WF S2x512x512x128 S128x1 S2x512x512x1 [3] [0] [0, 1, 2] [1] [] []
  dot_S2x512x512_S2x512x256_S2x512x256_2_1_1_2_0_0_wf : DotDims.WF S2x512x512 S2x512x256 S2x512x256 [2] [1] [1] [2] [0] [0]

variable [Facts₀]

def dot_S2x512x256_S256x256_S2x512x256_2_0_01_1_n_n : DotDims S2x512x256 S256x256 S2x512x256 where
  lhsContracting := [2]
  rhsContracting := [0]
  lhsNonContracting := [0, 1]
  rhsNonContracting := [1]
  lhsBatch := []
  rhsBatch := []
  wf := dot_S2x512x256_S256x256_S2x512x256_2_0_01_1_n_n_wf
def dot_S2x512x512x256_S256x128_S2x512x512x128_3_0_012_1_n_n : DotDims S2x512x512x256 S256x128 S2x512x512x128 where
  lhsContracting := [3]
  rhsContracting := [0]
  lhsNonContracting := [0, 1, 2]
  rhsNonContracting := [1]
  lhsBatch := []
  rhsBatch := []
  wf := dot_S2x512x512x256_S256x128_S2x512x512x128_3_0_012_1_n_n_wf
def dot_S2x512x512x128_S128x1_S2x512x512x1_3_0_012_1_n_n : DotDims S2x512x512x128 S128x1 S2x512x512x1 where
  lhsContracting := [3]
  rhsContracting := [0]
  lhsNonContracting := [0, 1, 2]
  rhsNonContracting := [1]
  lhsBatch := []
  rhsBatch := []
  wf := dot_S2x512x512x128_S128x1_S2x512x512x1_3_0_012_1_n_n_wf
def dot_S2x512x512_S2x512x256_S2x512x256_2_1_1_2_0_0 : DotDims S2x512x512 S2x512x256 S2x512x256 where
  lhsContracting := [2]
  rhsContracting := [1]
  lhsNonContracting := [1]
  rhsNonContracting := [2]
  lhsBatch := [0]
  rhsBatch := [0]
  wf := dot_S2x512x512_S2x512x256_S2x512x256_2_1_1_2_0_0_wf

class Facts : Prop extends Facts₀ where

variable [Facts]
-- ==== Proof.Spec.lean ====
/-
  Pairwise-MLP attention as one function of the argument arrays, over the extended reals.

  For a batch b, a query row q and a key row k the similarity is a three-layer perceptron of the
  concatenated pair (Q[b,q,:], K[b,k,:]).  The first layer's weight W1 : [512, 256] splits by rows into
  the part that meets the query (rows 0..255) and the part that meets the key (rows 256..511), so the
  first layer's pre-activation of the pair is

    pre[b,q,k,h] = Σ_d Q[b,q,d] · W1[d,h] + Σ_d K[b,k,d] · W1[256+d,h] + b1[h],

  and with h1 = max pre 0 the later layers are

    h2[j] = max (Σ_h h1[h] · W2[h,j] + b2[j]) 0,        s = Σ_j h2[j] · W3[j,0] + b3[0].

  A key whose mask word is 0 gets the fill value instead of s; a row of masked similarities is turned
  into weights by the softmax written with the row maximum subtracted,

    e[k] = exp (ms[k] − max_k' ms[k']),      attn[k] = e[k] / Σ_k' e[k'],

  and the output is the weighted sum of the value rows, out[b,q,d] = Σ_k attn[b,q,k] · V[b,k,d].
  Every sum is a finite sum in the commutative monoid of extended reals, the quotient is the
  extended-real quotient, and the row maximum is the fold of max from −∞ over the 512 keys.

  The functions of one query row are stated over plain coordinate functions (Fin n → EReal), so that a
  block of an array and the whole array are read through the same definitions.
-/
import Idealize.ShloMosaic.PureOps.Ideal
import Idealize.ShloMosaic.PureOps.Ideal.Laws
import Idealize.ShloMosaic.Lib.ValueIdx

noncomputable section

namespace Cert.MlpAttn

open Idealize.ShloMosaic Idealize.ShloMosaic.ValueIdx

/-! ## One query row -/

/-- The value a masked similarity is replaced by (the f32 word of −10⁹) and the row maximum's start (−∞). -/
abbrev fill : EReal := Ideal.ofBits .f32 0xCE6E6B28#32
abbrev negInf : EReal := Ideal.ofBits .f32 0xFF800000#32

/-- The similarity of one pair from its first-layer pre-activation: two clamped layers and a dot product. -/
def pairScore (pre : Fin 256 → EReal) (w2 : Fin 256 → Fin 128 → EReal) (b2 w3 : Fin 128 → EReal) (b3 : EReal) : EReal :=
  ∑ j : Fin 128, max (∑ h : Fin 256, max (pre h) 0 * w2 h j + b2 j) 0 * w3 j + b3

/-- A row of similarities with the masked keys (mask word 0) at the fill value. -/
def maskedRow (msk : Fin 512 → BitVec 32) (s : Fin 512 → EReal) : Fin 512 → EReal :=
  fun k => Scalar.select (IntOp.cmpi .eq (msk k) 0#32) fill (s k)

/-- The softmax of a row, with the row's maximum subtracted before the exponential. -/
def softmaxRow (s : Fin 512 → EReal) : Fin 512 → EReal :=
  fun k => Ideal.div (Ideal.exp (s k - (Finset.univ : Finset (Fin 512)).fold max negInf s))
    (∑ k' : Fin 512, Ideal.exp (s k' - (Finset.univ : Finset (Fin 512)).fold max negInf s))

/-- The attention weights of one query row over the 512 keys, from the pairs' pre-activations. -/
def attnRow (pre : Fin 512 → Fin 256 → EReal) (msk : Fin 512 → BitVec 32) (w2 : Fin 256 → Fin 128 → EReal)
    (b2 w3 : Fin 128 → EReal) (b3 : EReal) : Fin 512 → EReal :=
  softmaxRow (maskedRow msk fun k => pairScore (pre k) w2 b2 w3 b3)

/-- The weighted sum of the value rows. -/
def outRow (a : Fin 512 → EReal) (v : Fin 512 → Fin 256 → EReal) : Fin 256 → EReal :=
  fun d => ∑ k : Fin 512, a k * v k d

/-! ## The whole arrays -/

/-- The shapes of the ten arguments; the results have the shapes of the key array and of the mask. -/
abbrev Sseq : Shape := ⟨3, ![2, 512, 256]⟩
abbrev Spair : Shape := ⟨3, ![2, 512, 512]⟩
abbrev Sw1 : Shape := ⟨2, ![512, 256]⟩
abbrev Sb1 : Shape := ⟨1, ![256]⟩
abbrev Sw2 : Shape := ⟨2, ![256, 128]⟩
abbrev Sb2 : Shape := ⟨1, ![128]⟩
abbrev Sw3 : Shape := ⟨2, ![128, 1]⟩
abbrev Sb3 : Shape := ⟨1, ![1]⟩

/-- Row d of the query half of W1 and row d of its key half, as rows of the whole matrix. -/
abbrev rowQ (d : Fin 256) : Fin 512 := ⟨d.val, by have := d.isLt; omega⟩
abbrev rowK (d : Fin 256) : Fin 512 := ⟨256 + d.val, by have := d.isLt; omega⟩

section
variable (Q K V : Sseq.Idx → EReal) (M : Spair.Idx → BitVec 32) (W1 : Sw1.Idx → EReal) (B1 : Sb1.Idx → EReal)
  (W2 : Sw2.Idx → EReal) (B2 : Sb2.Idx → EReal) (W3 : Sw3.Idx → EReal) (B3 : Sb3.Idx → EReal)

/-- The first layer's pre-activation of the pair (q, k) of batch b. -/
def preAct (b : Fin 2) (q k : Fin 512) (h : Fin 256) : EReal :=
  (∑ d : Fin 256, Q (ix3 b q d) * W1 (ix2 (rowQ d) h)) + (∑ d : Fin 256, K (ix3 b k d) * W1 (ix2 (rowK d) h)) + B1 (ix1 h)

/-- The attention weights, as an array [2, 512, 512]. -/
def attn : Spair.Idx → EReal := fun i =>
  attnRow (fun k => preAct Q K W1 B1 (i 0) (i 1) k) (fun k => M (ix3 (i 0) (i 1) k)) (fun h j => W2 (ix2 h j))
    (fun j => B2 (ix1 j)) (fun j => W3 (ix2 j 0)) (B3 (ix1 0)) (i 2)

/-- The attended values, as an array [2, 512, 256]. -/
def out : Sseq.Idx → EReal := fun i =>
  outRow (fun k => attn Q K M W1 B1 W2 B2 W3 B3 (ix3 (i 0) (i 1) k)) (fun k d => V (ix3 (i 0) k d)) (i 2)

end

/-! ## Three facts about the constants -/

/-- The bf16 zero word the first hidden layer is clamped at denotes 0 (the f32 zero word: Ideal.ofBits_zero_f32). -/
theorem ofBits_zero_bf16 : Ideal.ofBits .bf16 0x0000#16 = 0 := by simp [Ideal.ofBits, Ideal.ieee]

/-- A fold of max from a start value never falls below the start value. -/
theorem max_start_fold {ι : Type*} (s : Finset ι) (a : EReal) (f : ι → EReal) :
    max a (s.fold max a f) = s.fold max a f :=
  max_eq_right ((Finset.le_fold_max a).mpr (Or.inl le_rfl))

/-- Adding the bias before or after the key's projection is the same sum. -/
theorem pre_assoc (a b c : EReal) : a + c + b = a + b + c := add_right_comm a c b

end Cert.MlpAttn

end
-- ==== Proof.RefSpec.lean ====
/-
  The reference program's two results are the specification's two arrays.
-/
import proofs.«405893_j69303592288275_3_alg».proof.Proof.Gen.ReferenceIdeal.Read
import proofs.«405893_j69303592288275_3_alg».proof.Proof.Spec
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.ReferenceIdeal.RefSpec

open Cert.ReferenceIdeal Cert.ReferenceIdeal.Read Idealize.ShloMosaic Idealize.ShloMosaic.ValueIdx

variable [Cert.ReferenceIdeal.Facts]

/-! ## Indices are equal when their coordinates are -/

private theorem idx1_ext {n0 : Nat} (i j : (⟨1, ![n0]⟩ : Shape).Idx) (h0 : i 0 = j 0) : i = j := by
  funext a; match a with | ⟨0, _⟩ => exact h0

private theorem idx2_ext {n0 n1 : Nat} (i j : (⟨2, ![n0, n1]⟩ : Shape).Idx) (h0 : i 0 = j 0) (h1 : i 1 = j 1) : i = j := by
  funext a; match a with | ⟨0, _⟩ => exact h0 | ⟨1, _⟩ => exact h1

private theorem idx3_ext {n0 n1 n2 : Nat} (i j : (⟨3, ![n0, n1, n2]⟩ : Shape).Idx) (h0 : i 0 = j 0) (h1 : i 1 = j 1)
    (h2 : i 2 = j 2) : i = j := by
  funext a; match a with | ⟨0, _⟩ => exact h0 | ⟨1, _⟩ => exact h1 | ⟨2, _⟩ => exact h2

private theorem idx4_ext {n0 n1 n2 n3 : Nat} (i j : (⟨4, ![n0, n1, n2, n3]⟩ : Shape).Idx) (h0 : i 0 = j 0) (h1 : i 1 = j 1)
    (h2 : i 2 = j 2) (h3 : i 3 = j 3) : i = j := by
  funext a; match a with | ⟨0, _⟩ => exact h0 | ⟨1, _⟩ => exact h1 | ⟨2, _⟩ => exact h2 | ⟨3, _⟩ => exact h3

section
variable (x0 x1 : S2x512x256.Idx → EReal) (x3 : S2x512x512.Idx → BitVec 32) (x4 : S512x256.Idx → EReal)
    (x5 : S256.Idx → EReal) (x6 : S256x128.Idx → EReal) (x7 : S128.Idx → EReal) (x8 : S128x1.Idx → EReal) (x9 : S1.Idx → EReal)

/-! ## The first layer -/

/-- The query's projection: the contraction of a query row with the upper half of the first weight. -/
private theorem qproj_apply (b : Fin 2) (q : Fin 512) (h : Fin 256) :
    val_main_v2 (F := Ideal) x0 x4 (ix3 b q h) = ∑ d : Fin 256, x0 (ix3 b q d) * x4 (ix2 (Cert.MlpAttn.rowQ d) h) := by
  rw [val_main_v2_apply]
  refine Finset.sum_congr rfl fun d _ => ?_
  rw [val_main_v0_apply]
  exact congrArg₂ (· * ·) (congrArg x0 (idx3_ext _ _ rfl rfl rfl)) (congrArg x4 (idx2_ext _ _ rfl rfl))

/-- The key's projection: the contraction of a key row with the lower half of the first weight. -/
private theorem kproj_apply (b : Fin 2) (k : Fin 512) (h : Fin 256) :
    val_main_v3 (F := Ideal) x1 x4 (ix3 b k h) = ∑ d : Fin 256, x1 (ix3 b k d) * x4 (ix2 (Cert.MlpAttn.rowK d) h) := by
  rw [val_main_v3_apply]
  refine Finset.sum_congr rfl fun d _ => ?_
  rw [val_main_v1_apply]
  exact congrArg₂ (· * ·) (congrArg x1 (idx3_ext _ _ rfl rfl rfl)) (congrArg x4 (idx2_ext _ _ rfl rfl))

/-- The first layer's pre-activation of a pair is the specification's. -/
private theorem pre_apply (b : Fin 2) (q k : Fin 512) (h : Fin 256) :
    val_main_v11 (F := Ideal) x0 x1 x4 x5 (ix4 b q k h) = Cert.MlpAttn.preAct x0 x1 x4 x5 b q k h := by
  rw [val_main_v11_apply, val_main_v8_apply, val_main_v6_apply, val_main_v4_apply, val_main_v7_apply, val_main_v5_apply,
    val_main_v10_apply, val_main_v9_apply]
  rw [show idx_main_v4 (idx_main_v6 (ix4 b q k h)) = ix3 b q h from idx3_ext _ _ rfl rfl rfl,
    show idx_main_v5 (idx_main_v7 (ix4 b q k h)) = ix3 b k h from idx3_ext _ _ rfl rfl rfl,
    show idx_main_v9 (idx_main_v10 (ix4 b q k h)) = ix1 h from idx1_ext _ _ rfl,
    qproj_apply, kproj_apply]
  rfl

/-- The first hidden layer: the pre-activation clamped at zero. -/
private theorem hid1_apply (b : Fin 2) (q k : Fin 512) (h : Fin 256) :
    val_main_v12 (F := Ideal) x0 x1 x4 x5 (ix4 b q k h) = max (Cert.MlpAttn.preAct x0 x1 x4 x5 b q k h) 0 := by
  rw [val_main_v12_apply, pre_apply, val_main_call0_v0_apply, val_main_call0_cst_apply, Ideal.ofBits_def,
    Ideal.ofBits_zero_f32, Ideal.maximumf_def]

end

section
variable (x0 x1 : S2x512x256.Idx → EReal) (x3 : S2x512x512.Idx → BitVec 32) (x4 : S512x256.Idx → EReal)
    (x5 : S256.Idx → EReal) (x6 : S256x128.Idx → EReal) (x7 : S128.Idx → EReal) (x8 : S128x1.Idx → EReal) (x9 : S1.Idx → EReal)

/-! ## The second and third layers -/

/-- The second hidden layer: the first one through the second weight, the bias added, clamped at zero. -/
private theorem hid2_apply (b : Fin 2) (q k : Fin 512) (j : Fin 128) :
    val_main_v17 (F := Ideal) x0 x1 x4 x5 x6 x7 (ix4 b q k j)
      = max (∑ h : Fin 256, max (Cert.MlpAttn.preAct x0 x1 x4 x5 b q k h) 0 * x6 (ix2 h j) + x7 (ix1 j)) 0 := by
  rw [val_main_v17_apply, val_main_v16_apply, val_main_v13_apply, val_main_v15_apply, val_main_v14_apply,
    val_main_call1_v0_apply, val_main_call1_cst_apply, Ideal.ofBits_def, Ideal.ofBits_zero_f32, Ideal.maximumf_def,
    Ideal.addf_def,
    show idx_main_v14 (idx_main_v15 (ix4 b q k j)) = ix1 j from idx1_ext _ _ rfl]
  refine congrArg (fun t => max (t + x7 (ix1 j)) 0) (Finset.sum_congr rfl fun h _ => ?_)
  rw [show lidx_main_v13 (ix4 b q k j) h = ix4 b q k h from idx4_ext _ _ rfl rfl rfl rfl, hid1_apply]
  exact congrArg (fun t => max (Cert.MlpAttn.preAct x0 x1 x4 x5 b q k h) 0 * x6 t) (idx2_ext _ _ rfl rfl)

/-- The similarity before the reshape: the second hidden layer against the third weight's one column, plus the bias. -/
private theorem score4_apply (b : Fin 2) (q k : Fin 512) :
    val_main_v21 (F := Ideal) x0 x1 x4 x5 x6 x7 x8 x9 (ix4 b q k 0)
      = Cert.MlpAttn.pairScore (Cert.MlpAttn.preAct x0 x1 x4 x5 b q k) (fun h j => x6 (ix2 h j)) (fun j => x7 (ix1 j))
          (fun j => x8 (ix2 j 0)) (x9 (ix1 0)) := by
  rw [val_main_v21_apply, val_main_v18_apply, val_main_v20_apply, val_main_v19_apply, Ideal.addf_def,
    show idx_main_v19 (idx_main_v20 (ix4 b q k 0)) = ix1 0 from idx1_ext _ _ rfl]
  unfold Cert.MlpAttn.pairScore
  refine congrArg (fun t => t + x9 (ix1 0)) (Finset.sum_congr rfl fun j _ => ?_)
  rw [show lidx_main_v18 (ix4 b q k 0) j = ix4 b q k j from idx4_ext _ _ rfl rfl rfl rfl, hid2_apply]
  exact congrArg (fun t => max (∑ h : Fin 256, max (Cert.MlpAttn.preAct x0 x1 x4 x5 b q k h) 0 * x6 (ix2 h j) + x7 (ix1 j)) 0 * x8 t)
    (idx2_ext _ _ rfl rfl)

/-- The row-major position of (b, q, k, 0) in [2, 512, 512, 1] is that of (b, q, k) in [2, 512, 512]. -/
private theorem reshape_idx (b : Fin 2) (q k : Fin 512) : idx_main_v22 (ix3 b q k) = ix4 b q k 0 := by
  have hb := b.isLt; have hq := q.isLt; have hk := k.isLt
  refine idx4_ext _ _ (Fin.ext ?_) (Fin.ext ?_) (Fin.ext ?_) rfl
  · show ((b.val * 512 + q.val) * 512 + k.val) / 262144 = b.val; omega
  · show ((b.val * 512 + q.val) * 512 + k.val) / 512 % 512 = q.val; omega
  · show ((b.val * 512 + q.val) * 512 + k.val) / 1 % 512 = k.val; omega

/-- The similarity of the pair (q, k) of batch b is the specification's. -/
private theorem score_apply (b : Fin 2) (q k : Fin 512) :
    val_main_v22 (F := Ideal) x0 x1 x4 x5 x6 x7 x8 x9 (ix3 b q k)
      = Cert.MlpAttn.pairScore (Cert.MlpAttn.preAct x0 x1 x4 x5 b q k) (fun h j => x6 (ix2 h j)) (fun j => x7 (ix1 j))
          (fun j => x8 (ix2 j 0)) (x9 (ix1 0)) := by
  rw [val_main_v22_apply, reshape_idx, score4_apply]

end

section
variable (x0 x1 : S2x512x256.Idx → EReal) (x3 : S2x512x512.Idx → BitVec 32) (x4 : S512x256.Idx → EReal)
    (x5 : S256.Idx → EReal) (x6 : S256x128.Idx → EReal) (x7 : S128.Idx → EReal) (x8 : S128x1.Idx → EReal) (x9 : S1.Idx → EReal)

/-! ## The mask and the softmax -/

/-- The masked row of similarities of the query (b, q), as the specification names it. -/
private abbrev mrow (b : Fin 2) (q : Fin 512) : Fin 512 → EReal :=
  Cert.MlpAttn.maskedRow (fun k => x3 (ix3 b q k)) fun k =>
    Cert.MlpAttn.pairScore (Cert.MlpAttn.preAct x0 x1 x4 x5 b q k) (fun h j => x6 (ix2 h j)) (fun j => x7 (ix1 j))
      (fun j => x8 (ix2 j 0)) (x9 (ix1 0))

/-- A key whose mask word is zero gets the fill value, every other key its similarity. -/
private theorem masked_apply (b : Fin 2) (q k : Fin 512) :
    val_main_v25 (F := Ideal) x0 x1 x3 x4 x5 x6 x7 x8 x9 (ix3 b q k) = mrow x0 x1 x3 x4 x5 x6 x7 x8 x9 b q k := by
  rw [val_main_v25_apply, val_main_v24_apply, val_main_v23_apply, val_main_c_apply, val_main_call2_v0_apply,
    val_main_cst_apply, Ideal.ofBits_def, score_apply]
  rfl

/-- The row maximum: the fold of max from −∞ over the 512 keys of the masked row. -/
private theorem rowmax_apply (b : Fin 2) (q : Fin 512) :
    val_main_v28 (F := Ideal) x0 x1 x3 x4 x5 x6 x7 x8 x9 (ix2 b q)
      = (Finset.univ : Finset (Fin 512)).fold max Cert.MlpAttn.negInf (mrow x0 x1 x3 x4 x5 x6 x7 x8 x9 b q) := by
  have hred : S2x512x512.Reduces [2] S2x512 := by decide
  have hfold : val_main_v26 (F := Ideal) x0 x1 x3 x4 x5 x6 x7 x8 x9 (ix2 b q)
      = (Finset.univ : Finset (Fin 512)).fold max Cert.MlpAttn.negInf (mrow x0 x1 x3 x4 x5 x6 x7 x8 x9 b q) := by
    unfold val_main_v26
    refine (Host.reduce_eq_fold_single (FloatOps.maximumf (F := Ideal) (φ := .f32))
      (val_main_v25 (F := Ideal) x0 x1 x3 x4 x5 x6 x7 x8 x9) (val_main_cst_0 (F := Ideal))
      _ hred _ (ix2 b q)).trans ?_
    have hk : ∀ k : Fin 512, val_main_v25 (F := Ideal) x0 x1 x3 x4 x5 x6 x7 x8 x9 (hred.lift (ix2 b q) k)
        = mrow x0 x1 x3 x4 x5 x6 x7 x8 x9 b q k := fun k => by
      rw [show hred.lift (ix2 b q) k = ix3 b q k from idx3_ext _ _ (Fin.ext rfl) (Fin.ext rfl) (Fin.ext rfl), masked_apply]
    have hrow : (val_main_v25 (F := Ideal) x0 x1 x3 x4 x5 x6 x7 x8 x9) ∘ hred.lift (ix2 b q)
        = mrow x0 x1 x3 x4 x5 x6 x7 x8 x9 b q := funext hk
    rw [hrow]
    rfl
  rw [val_main_v28_apply, hfold, val_main_v27_apply, val_main_cst_1_apply, Ideal.ofBits_def, Ideal.maximumf_def]
  exact Cert.MlpAttn.max_start_fold _ _ _

/-- The exponential of a masked similarity less its row's maximum. -/
private theorem exp_apply (b : Fin 2) (q k : Fin 512) :
    val_main_v32 (F := Ideal) x0 x1 x3 x4 x5 x6 x7 x8 x9 (ix3 b q k)
      = Ideal.exp (mrow x0 x1 x3 x4 x5 x6 x7 x8 x9 b q k
          - (Finset.univ : Finset (Fin 512)).fold max Cert.MlpAttn.negInf (mrow x0 x1 x3 x4 x5 x6 x7 x8 x9 b q)) := by
  rw [val_main_v32_apply, val_main_v31_apply, val_main_v30_apply, val_main_v29_apply, masked_apply,
    show idx_main_v29 (idx_main_v30 (ix3 b q k)) = ix2 b q from idx2_ext _ _ rfl rfl, rowmax_apply,
    Ideal.hostUnary_exp_def, Ideal.subf_def]

/-- The row's sum of exponentials (the sum starts from the zero word). -/
private theorem den_apply (b : Fin 2) (q : Fin 512) :
    val_main_v33 (F := Ideal) x0 x1 x3 x4 x5 x6 x7 x8 x9 (ix2 b q)
      = ∑ k : Fin 512, Ideal.exp (mrow x0 x1 x3 x4 x5 x6 x7 x8 x9 b q k
          - (Finset.univ : Finset (Fin 512)).fold max Cert.MlpAttn.negInf (mrow x0 x1 x3 x4 x5 x6 x7 x8 x9 b q)) := by
  rw [val_main_v33_apply, val_main_cst_2_apply, Ideal.ofBits_def, Ideal.ofBits_zero_f32, zero_add]
  refine Finset.sum_congr rfl fun k _ => ?_
  rw [show idx_main_v33 (ix2 b q) k = ix3 b q k from idx3_ext _ _ rfl rfl rfl, exp_apply]

end

/-- The reference's attention weights are the specification's. -/
theorem ref_attn (x0 x1 : S2x512x256.Idx → EReal) (x3 : S2x512x512.Idx → BitVec 32) (x4 : S512x256.Idx → EReal)
    (x5 : S256.Idx → EReal) (x6 : S256x128.Idx → EReal) (x7 : S128.Idx → EReal) (x8 : S128x1.Idx → EReal) (x9 : S1.Idx → EReal) :
    val_main_v36 (F := Ideal) x0 x1 x3 x4 x5 x6 x7 x8 x9 = Cert.MlpAttn.attn x0 x1 x3 x4 x5 x6 x7 x8 x9 := by
  funext i
  obtain ⟨b, q, k, rfl⟩ : ∃ (b : Fin 2) (q k : Fin 512), i = ix3 b q k := ⟨i 0, i 1, i 2, eq_ix3 i⟩
  rw [val_main_v36_apply, val_main_v35_apply, val_main_v34_apply,
    show idx_main_v34 (idx_main_v35 (ix3 b q k)) = ix2 b q from idx2_ext _ _ rfl rfl, exp_apply, den_apply,
    Ideal.hostDivf_def]
  rfl

/-- The reference's output is the specification's. -/
theorem ref_out (x0 x1 x2 : S2x512x256.Idx → EReal) (x3 : S2x512x512.Idx → BitVec 32) (x4 : S512x256.Idx → EReal)
    (x5 : S256.Idx → EReal) (x6 : S256x128.Idx → EReal) (x7 : S128.Idx → EReal) (x8 : S128x1.Idx → EReal) (x9 : S1.Idx → EReal) :
    val_main_v37 (F := Ideal) x0 x1 x2 x3 x4 x5 x6 x7 x8 x9 = Cert.MlpAttn.out x0 x1 x2 x3 x4 x5 x6 x7 x8 x9 := by
  funext i
  obtain ⟨b, q, d, rfl⟩ : ∃ (b : Fin 2) (q : Fin 512) (d : Fin 256), i = ix3 b q d := ⟨i 0, i 1, i 2, eq_ix3 i⟩
  rw [val_main_v37_apply, ref_attn]
  show _ = ∑ k : Fin 512, Cert.MlpAttn.attn x0 x1 x3 x4 x5 x6 x7 x8 x9 (ix3 b q k) * x2 (ix3 b k d)
  refine Finset.sum_congr rfl fun k _ => ?_
  exact congrArg₂ (· * ·) (congrArg (Cert.MlpAttn.attn x0 x1 x3 x4 x5 x6 x7 x8 x9) (idx3_ext _ _ rfl rfl rfl))
    (congrArg x2 (idx3_ext _ _ rfl rfl rfl))

end Cert.ReferenceIdeal.RefSpec

end
-- ==== Proof.PayScore.lean ====
/-
  The similarity of the pairs of one chunk of keys, read at a pair.

  The body forms, for a chunk of 128 keys, the first hidden layer of all 128 × 128 pairs at once: the query
  rows' vector (already holding the query projection plus the first bias) is repeated along a new key axis,
  the keys' projection along a new query axis, and their sum is clamped at 0.  The pairs are then laid
  out as the 16384 rows of one matrix (pair (r, k) is row 128·r + k), multiplied by the second weight,
  biased, clamped, laid back out as pairs, multiplied by the third layer's row and summed over its 128
  entries; the third bias is added last.  At the pair (r, k) this is the similarity of the pre-activation
  vector h ↦ a[r, h] + c[k, h], whichever of the four unrolled chunks computes it.
-/
import proofs.«405893_j69303592288275_3_alg».proof.Proof.Gen.KernelIdeal.Skeleton
import proofs.«405893_j69303592288275_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.PayScore

open Cert.KernelIdeal Cert.KernelIdeal.Gen Idealize.ShloMosaic Idealize.ShloMosaic.ValueIdx

variable [Cert.KernelIdeal.Facts]

/-! ## The layout steps, each read at an index -/

/-- The row of the pair (r, k) in the matrix whose rows are all 128 × 128 pairs. -/
private abbrev pairRow (r k : Fin 128) : Fin 16384 := ⟨128 * r.val + k.val, by have := r.isLt; have := k.isLt; omega⟩

/-- The query rows repeated along a new key axis: element (r, k, h) is a[r, h]. -/
private theorem repeatQ_apply (a : FVec Ideal S128x256 .bf16) (h1 : S128x256.ShapeCasts S128x1x256)
    (h2 : S128x1x256.Broadcasts S128x128x256) (r k : Fin 128) (h : Fin 256) :
    broadcastTo S128x128x256 (shapeCast S128x1x256 a h1) h2 (ix3 r k h) = a (ix2 r h) := by
  refine (broadcastTo_apply _ h2 (ix3 r k h) (ix3 r (0 : Fin 1) h) (fun d => match d with
    | ⟨0, _⟩ => rfl | ⟨1, _⟩ => rfl | ⟨2, _⟩ => rfl)).trans ?_
  refine shapeCast_apply a h1 _ (ix2 r h) ?_
  rw [Shape.rowMajor_val_two, Shape.rowMajor_val_three]
  show r.val * 256 + h.val = (r.val * 1 + 0) * 256 + h.val
  omega

/-- The keys' rows repeated along a new query axis: element (r, k, h) is c[k, h]. -/
private theorem repeatK_apply (c : FVec Ideal S128x256 .bf16) (h1 : S128x256.ShapeCasts S1x128x256)
    (h2 : S1x128x256.Broadcasts S128x128x256) (r k : Fin 128) (h : Fin 256) :
    broadcastTo S128x128x256 (shapeCast S1x128x256 c h1) h2 (ix3 r k h) = c (ix2 k h) := by
  refine (broadcastTo_apply _ h2 (ix3 r k h) (ix3 (0 : Fin 1) k h) (fun d => match d with
    | ⟨0, _⟩ => rfl | ⟨1, _⟩ => rfl | ⟨2, _⟩ => rfl)).trans ?_
  refine shapeCast_apply c h1 _ (ix2 k h) ?_
  rw [Shape.rowMajor_val_two, Shape.rowMajor_val_three]
  show k.val * 256 + h.val = (0 * 128 + k.val) * 256 + h.val
  omega

/-- The first layer's pre-activation of all pairs: a[r, h] + c[k, h] at (r, k, h). -/
private theorem pay13_apply (a : FVec Ideal S128x256 .bf16) (c : Vec Ideal S128x256 .bf16) (r k : Fin 128) (h : Fin 256) :
    k0_pay13 (F := Ideal) a c (ix3 r k h) = a (ix2 r h) + c (ix2 k h) := by
  unfold k0_pay13
  refine (addf_apply _ _ _).trans ?_
  exact congrArg₂ (· + ·) (repeatQ_apply a _ _ r k h) (repeatK_apply c _ _ r k h)

/-- The pairs laid out as rows: row 128·r + k of the matrix is the pair (r, k). -/
private theorem flat_apply (X : FVec Ideal S128x128x256 .bf16) (hs : S128x128x256.ShapeCasts S16384x256)
    (r k : Fin 128) (h : Fin 256) :
    shapeCast S16384x256 X hs (ix2 (pairRow r k) h) = X (ix3 r k h) := by
  refine shapeCast_apply X hs _ (ix3 r k h) ?_
  rw [Shape.rowMajor_val_three, Shape.rowMajor_val_two]
  show (r.val * 128 + k.val) * 256 + h.val = (128 * r.val + k.val) * 256 + h.val
  omega

/-- The rows laid back out as pairs. -/
private theorem unflat_apply (Y : FVec Ideal S16384x128 .f32) (hs : S16384x128.ShapeCasts S128x128x128)
    (r k j : Fin 128) :
    shapeCast S128x128x128 Y hs (ix3 r k j) = Y (ix2 (pairRow r k) j) := by
  refine shapeCast_apply Y hs _ (ix2 (pairRow r k) j) ?_
  rw [Shape.rowMajor_val_three, Shape.rowMajor_val_two]
  show (128 * r.val + k.val) * 128 + j.val = (r.val * 128 + k.val) * 128 + j.val
  omega

/-! ## The second layer's product at a row -/

/-- The product's left operand index: row kept, … -/
private theorem mm_lhs_0 (i : S16384x128.Idx) (q : dot_S16384x256_S256x128_S16384x128_1_0_0_1_n_n.contr.Idx) :
    (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
/-- … column the contracted coordinate. -/
private theorem mm_lhs_1 (i : S16384x128.Idx) (q : dot_S16384x256_S256x128_S16384x128_1_0_0_1_n_n.contr.Idx) :
    (dot_S16384x256_S256x128_S16384x128_1_0_0_1_n_n.lhsIdx i q 1).val = (q ⟨0, by decide⟩).val :=
  dot_S16384x256_S256x128_S16384x128_1_0_0_1_n_n.lhsIdx_val_of_single rfl i q
/-- The right operand index: row the contracted coordinate, … -/
private theorem mm_rhs_0 (i : S16384x128.Idx) (q : dot_S16384x256_S256x128_S16384x128_1_0_0_1_n_n.contr.Idx) :
    (dot_S16384x256_S256x128_S16384x128_1_0_0_1_n_n.rhsIdx i q 0).val = (q ⟨0, by decide⟩).val :=
  dot_S16384x256_S256x128_S16384x128_1_0_0_1_n_n.rhsIdx_val_of_single rfl i q
/-- … column kept. -/
private theorem mm_rhs_1 (i : S16384x128.Idx) (q : dot_S16384x256_S256x128_S16384x128_1_0_0_1_n_n.contr.Idx) :
    (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl

/-- The product into the zero accumulator, at row i and column j: the sum over the 256 hidden units. -/
private theorem mm_apply (X : FVec Ideal S16384x256 .bf16) (W : FVec Ideal S256x128 .bf16) (i : Fin 16384) (j : Fin 128) :
    matmul dot_S16384x256_S256x128_S16384x128_1_0_0_1_n_n none X W (constant S16384x128 .f32 0x00000000#32) (ix2 i j)
      = ∑ h : Fin 256, X (ix2 i h) * W (ix2 h j) := by
  simp only [matmul]
  rw [Ideal.matmul_constant_zero_apply, ← Equiv.sum_comp (ValueIdx.contrEquiv1 dot_S16384x256_S256x128_S16384x128_1_0_0_1_n_n 256 rfl rfl).symm]
  refine Finset.sum_congr rfl fun h _ => ?_
  have hk := ValueIdx.contrEquiv1_symm_val dot_S16384x256_S256x128_S16384x128_1_0_0_1_n_n 256 rfl rfl h
  have el : dot_S16384x256_S256x128_S16384x128_1_0_0_1_n_n.lhsIdx (ix2 i j) ((ValueIdx.contrEquiv1 dot_S16384x256_S256x128_S16384x128_1_0_0_1_n_n 256 rfl rfl).symm h) = ix2 i h := funext fun d => Fin.ext (by
    match d with
    | ⟨0, _⟩ => exact mm_lhs_0 _ _
    | ⟨1, _⟩ => exact (mm_lhs_1 _ _).trans hk)
  have er : dot_S16384x256_S256x128_S16384x128_1_0_0_1_n_n.rhsIdx (ix2 i j) ((ValueIdx.contrEquiv1 dot_S16384x256_S256x128_S16384x128_1_0_0_1_n_n 256 rfl rfl).symm h) = ix2 h j := funext fun d => Fin.ext (by
    match d with
    | ⟨0, _⟩ => exact (mm_rhs_0 _ _).trans hk
    | ⟨1, _⟩ => exact mm_rhs_1 _ _)
  rw [el, er]

/-! ## The biases, the clamps, the third layer -/

/-- The second bias row added to every row, then the clamp at the f32 zero. -/
private theorem bias2_apply (M : FVec Ideal S16384x128 .f32) (b2 : FVec Ideal S1x128 .f32) (hb : S1x128.Broadcasts S16384x128)
    (i : Fin 16384) (j : Fin 128) :
    maximumf (addf M (broadcastTo S16384x128 b2 hb)) (broadcast S16384x128 (Scalar.ofBits .f32 0x00000000#32)) (ix2 i j)
      = max (M (ix2 i j) + b2 (ix2 0 j)) 0 := by
  show max (M (ix2 i j) + broadcastTo S16384x128 b2 hb (ix2 i j)) (Ideal.ofBits .f32 0x00000000#32) = _
  rw [Ideal.ofBits_zero_f32, broadcastTo_apply b2 hb (ix2 i j) (ix2 (0 : Fin 1) j) (fun d => match d with
    | ⟨0, _⟩ => rfl | ⟨1, _⟩ => rfl)]

/-- The third layer: each pair's 128 entries times the third layer's row, summed. -/
private theorem layer3_apply (Z : FVec Ideal S128x128x128 .f32) (w3 : FVec Ideal S1x1x128 .f32)
    (hb : S1x1x128.Broadcasts S128x128x128) (hr : S128x128x128.Reduces [2] S128x128) (hφ : FKind.Formats .f32)
    (hacc : (0x00000000#32 : BitVec 32) = FKind.add.neutral .f32 hφ) (r k : Fin 128) :
    multiReduction (F := Ideal) .add [2] S128x128 (mulf Z (broadcastTo S128x128x128 w3 hb)) 0x00000000#32 hr hφ hacc (ix2 r k)
      = ∑ j : Fin 128, Z (ix3 r k j) * w3 (ix3 0 0 j) := by
  refine (Ideal.multiReduction_add_single _ _ hr hφ hacc (ix2 r k)).trans ?_
  show (∑ j : Fin 128, mulf Z (broadcastTo S128x128x128 w3 hb) (hr.lift (ix2 r k) j)) = _
  refine Finset.sum_congr rfl fun j _ => ?_
  have e : hr.lift (ix2 r k) j = ix3 r k j := funext fun d => Fin.ext (by
    match d with
    | ⟨0, _⟩ => rfl
    | ⟨1, _⟩ => rfl
    | ⟨2, _⟩ => rfl)
  rw [e]
  refine (mulf_apply _ _ _).trans ?_
  rw [broadcastTo_apply w3 hb (ix3 r k j) (ix3 (0 : Fin 1) (0 : Fin 1) j) (fun d => match d with
    | ⟨0, _⟩ => rfl | ⟨1, _⟩ => rfl | ⟨2, _⟩ => rfl)]

/-- The third bias added to every pair; the closing cast keeps the shape. -/
private theorem bias3_apply (R : FVec Ideal S128x128 .f32) (b3 : FVec Ideal S1x1 .f32) (hb : S1x1.Broadcasts S128x128)
    (hs : S128x128.ShapeCasts S128x128) (r k : Fin 128) :
    shapeCast S128x128 (addf R (broadcastTo S128x128 b3 hb)) hs (ix2 r k) = R (ix2 r k) + b3 (ix2 0 0) := by
  rw [shapeCast_self]
  refine (addf_apply _ _ _).trans ?_
  rw [broadcastTo_apply b3 hb (ix2 r k) (ix2 (0 : Fin 1) (0 : Fin 1)) (fun d => match d with
    | ⟨0, _⟩ => rfl | ⟨1, _⟩ => rfl)]

/-! ## The common computation -/

/-- From the pairs' pre-activation P (any vector of the pairs' shape) and a clamp word that denotes 0, the closing
    payload at the pair (r, k) is the similarity of the vector h ↦ P[r, k, h]. -/
private theorem core_apply (b2 : FVec Ideal S1x128 .f32) (b3 : FVec Ideal S1x1 .f32) (w2 : FVec Ideal S256x128 .bf16)
    (w3 : FVec Ideal S1x1x128 .f32) (P : FVec Ideal S128x128x256 .bf16) (z : Ideal .bf16) (hz : (z : EReal) = 0)
    (r k : Fin 128) :
    k0_pay14 (F := Ideal) b2 b3 w2 w3 P z (ix2 r k)
      = Cert.MlpAttn.pairScore (fun h => P (ix3 r k h)) (fun h j => w2 (ix2 h j)) (fun j => b2 (ix2 0 j))
          (fun j => w3 (ix3 0 0 j)) (b3 (ix2 0 0)) := by
  unfold k0_pay14 Cert.MlpAttn.pairScore
  refine (bias3_apply _ _ _ _ r k).trans ?_
  refine congrArg (· + b3 (ix2 0 0)) ?_
  refine (layer3_apply _ _ _ _ _ _ r k).trans ?_
  refine Finset.sum_congr rfl fun j _ => ?_
  refine congrArg (· * w3 (ix3 0 0 j)) ?_
  refine (unflat_apply _ _ r k j).trans ?_
  refine (bias2_apply _ _ _ (pairRow r k) j).trans ?_
  refine congrArg (fun t => max (t + b2 (ix2 0 j)) 0) ?_
  refine (mm_apply _ _ (pairRow r k) j).trans ?_
  refine Finset.sum_congr rfl fun h _ => ?_
  refine congrArg (· * w2 (ix2 h j)) ?_
  refine (flat_apply _ _ r k h).trans ?_
  show max (P (ix3 r k h)) z = max (P (ix3 r k h)) 0
  rw [hz]

/-! ## The parameters as the body rebinds them -/

/-- The third layer's row, cast to [1, 1, 128], reads the row itself. -/
private theorem pay5_apply (x7 : Vec Ideal S1x128 .f32) (j : Fin 128) :
    k0_pay5 (F := Ideal) x7 (ix3 0 0 j) = x7 (ix2 0 j) := by
  unfold k0_pay5
  rw [shapeCast_self]
  refine shapeCast_apply x7 _ _ (ix2 (0 : Fin 1) j) ?_
  rw [Shape.rowMajor_val_two, Shape.rowMajor_val_three]
  show 0 * 128 + j.val = (0 * 1 + 0) * 128 + j.val
  omega

private theorem pay2_eq (x9 : Vec Ideal S1x128 .f32) : k0_pay2 (F := Ideal) x9 = x9 := shapeCast_self _ _
private theorem pay3_eq (x10 : Vec Ideal S1x1 .f32) : k0_pay3 (F := Ideal) x10 = x10 := shapeCast_self _ _
/-- Over the extended reals the narrowing of the second weight is the identity. -/
private theorem pay4_eq (x6 : Vec Ideal S256x128 .f32) : k0_pay4 (F := Ideal) x6 = x6 := rfl

/-- The core lemma at the body's own parameters and the pairs' sum. -/
private theorem score_apply (x6 : Vec Ideal S256x128 .f32) (x7 x9 : Vec Ideal S1x128 .f32) (x10 : Vec Ideal S1x1 .f32)
    (a : FVec Ideal S128x256 .bf16) (c : Vec Ideal S128x256 .bf16) (z : Ideal .bf16) (hz : (z : EReal) = 0) (r k : Fin 128) :
    k0_pay14 (F := Ideal) (k0_pay2 x9) (k0_pay3 x10) (k0_pay4 x6) (k0_pay5 x7) (k0_pay13 a c) z (ix2 r k)
      = Cert.MlpAttn.pairScore (fun h => a (ix2 r h) + c (ix2 k h)) (fun h j => x6 (ix2 h j)) (fun j => x9 (ix2 0 j))
          (fun j => x7 (ix2 0 j)) (x10 (ix2 0 0)) := by
  refine (core_apply _ _ _ _ _ z hz r k).trans ?_
  rw [pay2_eq, pay3_eq, pay4_eq]
  have e1 : (fun h => k0_pay13 (F := Ideal) a c (ix3 r k h)) = fun h => a (ix2 r h) + c (ix2 k h) :=
    funext fun h => pay13_apply a c r k h
  have e2 : (fun j => k0_pay5 (F := Ideal) x7 (ix3 0 0 j)) = fun j => x7 (ix2 0 j) := funext fun j => pay5_apply x7 j
  rw [e1, e2]

/-- The similarity of pair (r, k) of a chunk: query-side vector a, key-side vector c. -/
abbrev chunkScore (x6 : Vec Ideal S256x128 .f32) (x7 x9 : Vec Ideal S1x128 .f32) (x10 : Vec Ideal S1x1 .f32)
    (a : FVec Ideal S128x256 .bf16) (c : Vec Ideal S128x256 .bf16) (r k : Fin 128) : EReal :=
  Cert.MlpAttn.pairScore (fun h => a (ix2 r h) + c (ix2 k h)) (fun h j => x6 (ix2 h j)) (fun j => x9 (ix2 0 j))
    (fun j => x7 (ix2 0 j)) (x10 (ix2 0 0))

/-- Chunk 0: one payload from the loaded rows to the stored similarities. -/
theorem pay8_apply (x6 : Vec Ideal S256x128 .f32) (x7 x9 : Vec Ideal S1x128 .f32) (x10 : Vec Ideal S1x1 .f32)
    (a : FVec Ideal S128x256 .bf16) (c : Vec Ideal S128x256 .bf16) (r k : Fin 128) :
    k0_pay8 (F := Ideal) (k0_pay2 x9) (k0_pay3 x10) (k0_pay4 x6) (k0_pay5 x7) a c (ix2 r k) = chunkScore x6 x7 x9 x10 a c r k := by
  exact score_apply x6 x7 x9 x10 a c (Scalar.ofBits .bf16 0x0000#16) Cert.MlpAttn.ofBits_zero_bf16 r k

/-- Chunk 1: the second layer, the repeated third-layer row, and the reduction, in three payloads. -/
theorem pay11_apply (x6 : Vec Ideal S256x128 .f32) (x7 x9 : Vec Ideal S1x128 .f32) (x10 : Vec Ideal S1x1 .f32)
    (a : FVec Ideal S128x256 .bf16) (c : Vec Ideal S128x256 .bf16) (r k : Fin 128) :
    k0_pay11 (F := Ideal) (k0_pay3 x10) (k0_pay9 (k0_pay2 x9) (k0_pay4 x6) a c) (k0_pay10 (k0_pay5 x7)) (ix2 r k)
      = chunkScore x6 x7 x9 x10 a c r k := by
  exact score_apply x6 x7 x9 x10 a c (Scalar.ofBits .bf16 0x0000#16) Cert.MlpAttn.ofBits_zero_bf16 r k

/-- Chunk 2: one payload. -/
theorem pay12_apply (x6 : Vec Ideal S256x128 .f32) (x7 x9 : Vec Ideal S1x128 .f32) (x10 : Vec Ideal S1x1 .f32)
    (a : FVec Ideal S128x256 .bf16) (c : Vec Ideal S128x256 .bf16) (r k : Fin 128) :
    k0_pay12 (F := Ideal) (k0_pay2 x9) (k0_pay3 x10) (k0_pay4 x6) (k0_pay5 x7) a c (ix2 r k) = chunkScore x6 x7 x9 x10 a c r k := by
  exact score_apply x6 x7 x9 x10 a c (Scalar.ofBits .bf16 0x0000#16) Cert.MlpAttn.ofBits_zero_bf16 r k

/-- Chunk 3: the pairs' sum in one payload, the clamp at the bf16 zero and the rest in another. -/
theorem pay14_apply (x6 : Vec Ideal S256x128 .f32) (x7 x9 : Vec Ideal S1x128 .f32) (x10 : Vec Ideal S1x1 .f32)
    (a : FVec Ideal S128x256 .bf16) (c : Vec Ideal S128x256 .bf16) (r k : Fin 128) :
    k0_pay14 (F := Ideal) (k0_pay2 x9) (k0_pay3 x10) (k0_pay4 x6) (k0_pay5 x7) (k0_pay13 a c) (FloatOps.ofBits .bf16 0#16) (ix2 r k)
      = chunkScore x6 x7 x9 x10 a c r k := by
  exact score_apply x6 x7 x9 x10 a c (FloatOps.ofBits .bf16 0#16) Cert.MlpAttn.ofBits_zero_bf16 r k

end Cert.KernelIdeal.PayScore

end
-- ==== Proof.PayRest.lean ====
/-
  The body's other payloads read at an index: the two projections, the softmax of a row of masked
  similarities, and the weighted sum of the value rows.
-/
import proofs.«405893_j69303592288275_3_alg».proof.Proof.Gen.KernelIdeal.Skeleton
import proofs.«405893_j69303592288275_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.PayRest

open Cert.KernelIdeal Cert.KernelIdeal.Gen Idealize.ShloMosaic Idealize.ShloMosaic.ValueIdx

variable [Cert.KernelIdeal.Facts]

/-! ## Layout operations at the literal shapes -/

/-- A shape cast between equal shapes reads the operand at the same index. -/
private theorem shapeCast_same_apply {α : Type} {s : Shape} (x : s.Idx → α) (hc : s.ShapeCasts s) (j : s.Idx) :
    shapeCast s x hc j = x j :=
  shapeCast_apply x hc j j rfl

/-- The [1,512,256] block viewed [512,256] reads (0, k, d) at (k, d). -/
private theorem drop_512x256 {α : Type} (x : S1x512x256.Idx → α) (hc : S1x512x256.ShapeCasts S512x256) (k : Fin 512) (d : Fin 256) :
    shapeCast S512x256 x hc (ix2 k d) = x (ix3 0 k d) := by
  refine (shapeCast_dropUnit_apply ![512, 256] x hc (ix2 k d)).trans (congrArg x ?_)
  funext a
  match a with
  | ⟨0, _⟩ => rfl
  | ⟨1, _⟩ => rfl
  | ⟨2, _⟩ => rfl

/-- The [1,128,256] block viewed [128,256] reads (0, r, d) at (r, d). -/
private theorem drop_128x256 {α : Type} (x : S1x128x256.Idx → α) (hc : S1x128x256.ShapeCasts S128x256) (r : Fin 128) (d : Fin 256) :
    shapeCast S128x256 x hc (ix2 r d) = x (ix3 0 r d) := by
  refine (shapeCast_dropUnit_apply ![128, 256] x hc (ix2 r d)).trans (congrArg x ?_)
  funext a
  match a with
  | ⟨0, _⟩ => rfl
  | ⟨1, _⟩ => rfl
  | ⟨2, _⟩ => rfl

/-- A [128,256] array viewed as a [1,128,256] block reads (r, d) at (0, r, d). -/
private theorem addUnit_128x256 {α : Type} (x : S128x256.Idx → α) (hc : S128x256.ShapeCasts S1x128x256) (r : Fin 128) (d : Fin 256) :
    shapeCast S1x128x256 x hc (ix3 0 r d) = x (ix2 r d) := by
  refine (shapeCast_addUnit_apply ![128, 256] x hc (ix3 0 r d)).trans (congrArg x ?_)
  funext a
  match a with
  | ⟨0, _⟩ => rfl
  | ⟨1, _⟩ => rfl

/-- The bias row [1,256] broadcast over 128 rows reads its column everywhere. -/
private theorem bcast_row_256 {α : Type} (x : S1x256.Idx → α) (hb : S1x256.Broadcasts S128x256) (r : Fin 128) (h : Fin 256) :
    broadcastTo S128x256 x hb (ix2 r h) = x (ix2 0 h) :=
  broadcastTo_apply x hb (ix2 r h) (ix2 0 h) (fun a => match a with
    | ⟨0, _⟩ => rfl
    | ⟨1, _⟩ => rfl)

/-- The [1,128,512] mask block viewed [128,512] reads (0, r, k) at (r, k). -/
private theorem drop_128x512 {α : Type} (x : S1x128x512.Idx → α) (hc : S1x128x512.ShapeCasts S128x512) (r : Fin 128) (k : Fin 512) :
    shapeCast S128x512 x hc (ix2 r k) = x (ix3 0 r k) := by
  refine (shapeCast_dropUnit_apply ![128, 512] x hc (ix2 r k)).trans (congrArg x ?_)
  funext a
  match a with
  | ⟨0, _⟩ => rfl
  | ⟨1, _⟩ => rfl
  | ⟨2, _⟩ => rfl

/-- A [128,512] array viewed as a [1,128,512] block reads (r, k) at (0, r, k). -/
private theorem addUnit_128x512 {α : Type} (x : S128x512.Idx → α) (hc : S128x512.ShapeCasts S1x128x512) (r : Fin 128) (k : Fin 512) :
    shapeCast S1x128x512 x hc (ix3 0 r k) = x (ix2 r k) := by
  refine (shapeCast_addUnit_apply ![128, 512] x hc (ix3 0 r k)).trans (congrArg x ?_)
  funext a
  match a with
  | ⟨0, _⟩ => rfl
  | ⟨1, _⟩ => rfl

/-- A per-row value [128], viewed as a column [128,1] and spread over the 512 keys, reads row r's entry at (r, k). -/
private theorem spread_row_apply {α : Type} (v : S128.Idx → α) (hc : S128.ShapeCasts S128x1) (hb : S128x1.Broadcasts S128x512)
    (r : Fin 128) (k : Fin 512) :
    broadcastTo S128x512 (shapeCast S128x1 v hc) hb (ix2 r k) = v (ix1 r) := by
  refine (broadcastTo_apply (shapeCast S128x1 v hc) hb (ix2 r k) (ix2 r 0) (fun a => match a with
    | ⟨0, _⟩ => rfl
    | ⟨1, _⟩ => rfl)).trans ?_
  refine shapeCast_apply v hc (ix2 r 0) (ix1 r) ?_
  rw [Shape.rowMajor_val_one, Shape.rowMajor_val_two]
  show r.val = r.val * 1 + 0
  omega

/-! ## The three products -/

/-! The [512,256] × [256,256] product of the key rows: its operand indices, one axis at a time. -/

private theorem lhs7_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
private theorem lhs7_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
private theorem rhs7_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
private theorem rhs7_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- Into the zero accumulator the product at (k, h) is the sum over the 256 contracted coordinates. -/
private theorem matmul7_apply (l : FVec Ideal S512x256 .bf16) (w : FVec Ideal S256x256 .bf16) (k : Fin 512) (h : Fin 256) :
    matmul dot_S512x256_S256x256_S512x256_1_0_0_1_n_n none l w (constant S512x256 .f32 0x00000000#32) (ix2 k h)
      = ∑ d : Fin 256, l (ix2 k d) * w (ix2 d h) := by
  refine (Ideal.matmul_constant_zero_apply dot_S512x256_S256x256_S512x256_1_0_0_1_n_n none l w (ix2 k h)).trans ?_
  rw [← Equiv.sum_comp (contrEquiv1 dot_S512x256_S256x256_S512x256_1_0_0_1_n_n 256 rfl rfl).symm]
  refine Finset.sum_congr rfl fun d _ => ?_
  have hk := contrEquiv1_symm_val dot_S512x256_S256x256_S512x256_1_0_0_1_n_n 256 rfl rfl d
  have el : dot_S512x256_S256x256_S512x256_1_0_0_1_n_n.lhsIdx (ix2 k h) ((contrEquiv1 dot_S512x256_S256x256_S512x256_1_0_0_1_n_n 256 rfl rfl).symm d) = ix2 k d := funext fun a => Fin.ext (by
    match a with
    | ⟨0, _⟩ => exact lhs7_0 _ _
    | ⟨1, _⟩ => exact (lhs7_1 _ _).trans hk)
  have er : dot_S512x256_S256x256_S512x256_1_0_0_1_n_n.rhsIdx (ix2 k h) ((contrEquiv1 dot_S512x256_S256x256_S512x256_1_0_0_1_n_n 256 rfl rfl).symm d) = ix2 d h := funext fun a => Fin.ext (by
    match a with
    | ⟨0, _⟩ => exact (rhs7_0 _ _).trans hk
    | ⟨1, _⟩ => exact rhs7_1 _ _)
  rw [el, er]

/-! The [128,256] × [256,256] product: its operand indices, one axis at a time. -/

private theorem lhs6_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
private theorem lhs6_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
private theorem rhs6_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
private theorem rhs6_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- Into the zero accumulator the product at (r, h) is the sum over the 256 contracted coordinates. -/
private theorem matmul6_apply (l : FVec Ideal S128x256 .bf16) (w : FVec Ideal S256x256 .bf16) (r : Fin 128) (h : Fin 256) :
    matmul dot_S128x256_S256x256_S128x256_1_0_0_1_n_n none l w (constant S128x256 .f32 0x00000000#32) (ix2 r h)
      = ∑ d : Fin 256, l (ix2 r d) * w (ix2 d h) := by
  refine (Ideal.matmul_constant_zero_apply dot_S128x256_S256x256_S128x256_1_0_0_1_n_n none l w (ix2 r h)).trans ?_
  rw [← Equiv.sum_comp (contrEquiv1 dot_S128x256_S256x256_S128x256_1_0_0_1_n_n 256 rfl rfl).symm]
  refine Finset.sum_congr rfl fun d _ => ?_
  have hk := contrEquiv1_symm_val dot_S128x256_S256x256_S128x256_1_0_0_1_n_n 256 rfl rfl d
  have el : dot_S128x256_S256x256_S128x256_1_0_0_1_n_n.lhsIdx (ix2 r h) ((contrEquiv1 dot_S128x256_S256x256_S128x256_1_0_0_1_n_n 256 rfl rfl).symm d) = ix2 r d := funext fun a => Fin.ext (by
    match a with
    | ⟨0, _⟩ => exact lhs6_0 _ _
    | ⟨1, _⟩ => exact (lhs6_1 _ _).trans hk)
  have er : dot_S128x256_S256x256_S128x256_1_0_0_1_n_n.rhsIdx (ix2 r h) ((contrEquiv1 dot_S128x256_S256x256_S128x256_1_0_0_1_n_n 256 rfl rfl).symm d) = ix2 d h := funext fun a => Fin.ext (by
    match a with
    | ⟨0, _⟩ => exact (rhs6_0 _ _).trans hk
    | ⟨1, _⟩ => exact rhs6_1 _ _)
  rw [el, er]

/-! The [128,512] × [512,256] product of the weights with the value rows. -/

private theorem lhs1_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
private theorem lhs1_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
private theorem rhs1_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
private theorem rhs1_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

/-- Into the zero accumulator the product at (r, d) is the sum over the 512 keys. -/
private theorem matmul1_apply (l : FVec Ideal S128x512 .bf16) (w : FVec Ideal S512x256 .bf16) (r : Fin 128) (d : Fin 256) :
    matmul dot_S128x512_S512x256_S128x256_1_0_0_1_n_n none l w (constant S128x256 .f32 0x00000000#32) (ix2 r d)
      = ∑ k : Fin 512, l (ix2 r k) * w (ix2 k d) := by
  refine (Ideal.matmul_constant_zero_apply dot_S128x512_S512x256_S128x256_1_0_0_1_n_n none l w (ix2 r d)).trans ?_
  rw [← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 r d) ((contrEquiv1 dot_S128x512_S512x256_S128x256_1_0_0_1_n_n 512 rfl rfl).symm k) = ix2 r k := funext fun a => Fin.ext (by
    match a with
    | ⟨0, _⟩ => exact lhs1_0 _ _
    | ⟨1, _⟩ => exact (lhs1_1 _ _).trans hk)
  have er : dot_S128x512_S512x256_S128x256_1_0_0_1_n_n.rhsIdx (ix2 r d) ((contrEquiv1 dot_S128x512_S512x256_S128x256_1_0_0_1_n_n 512 rfl rfl).symm k) = ix2 k d := funext fun a => Fin.ext (by
    match a with
    | ⟨0, _⟩ => exact (rhs1_0 _ _).trans hk
    | ⟨1, _⟩ => exact rhs1_1 _ _)
  rw [el, er]

/-! ## The row softmax -/

/-- Over the key axis, the source index above row r with key k inserted is (r, k). -/
private theorem lift_row (hr : S128x512.Reduces [1] S128) (r : Fin 128) (k : Fin 512) :
    hr.lift (ix1 r) k = ix2 r k := by
  funext a
  match a with
  | ⟨0, _⟩ => rfl
  | ⟨1, _⟩ => rfl

/-- Row r's maximum from −∞, spread back over the row. -/
private theorem rowmax_apply (m : FVec Ideal S128x512 .f32) (hr : S128x512.Reduces [1] S128) (hc : S128.ShapeCasts S128x1)
    (hb : S128x1.Broadcasts S128x512) (r : Fin 128) (k : Fin 512) :
    broadcastTo S128x512 (shapeCast S128x1 (multiReduction (F := Ideal) .maximumf [1] S128 m 0xFF800000#32 hr (.inl rfl) rfl) hc) hb (ix2 r k)
      = (Finset.univ : Finset (Fin 512)).fold max Cert.MlpAttn.negInf (fun k' => m (ix2 r k')) := by
  refine (spread_row_apply _ hc hb r k).trans ?_
  refine (Ideal.multiReduction_maximumf_single m 0xFF800000#32 hr (.inl rfl) rfl (ix1 r)).trans ?_
  have e : (m ∘ hr.lift (ix1 r)) = fun k' : Fin 512 => m (ix2 r k') := funext fun k' => congrArg m (lift_row hr r k')
  rw [e]
  rfl

/-- Row r's sum, spread back over the row. -/
private theorem rowsum_apply (m : FVec Ideal S128x512 .f32) (hr : S128x512.Reduces [1] S128) (hc : S128.ShapeCasts S128x1)
    (hb : S128x1.Broadcasts S128x512) (r : Fin 128) (k : Fin 512) :
    broadcastTo S128x512 (shapeCast S128x1 (multiReduction (F := Ideal) .add [1] S128 m 0x00000000#32 hr (.inl rfl) rfl) hc) hb (ix2 r k)
      = ∑ k' : Fin 512, m (ix2 r k') := by
  refine (spread_row_apply _ hc hb r k).trans ?_
  refine (Ideal.multiReduction_add_single m 0x00000000#32 hr (.inl rfl) rfl (ix1 r)).trans ?_
  exact Finset.sum_congr rfl fun k' _ => congrArg m (lift_row hr r k')

/-- The similarities with the masked keys at the fill value, at (r, k): the row's masked entry. -/
private theorem masked_apply (x3 : Vec Ideal S1x128x512 .i32) (sc : Vec Ideal S128x512 .f32) (hc : S1x128x512.ShapeCasts S128x512)
    (r : Fin 128) (k : Fin 512) :
    (select (cmpi .eq (shapeCast S128x512 x3 hc) (broadcast S128x512 0#32))
        (broadcast S128x512 (Scalar.ofBits (F := Ideal) .f32 0xCE6E6B28#32)) sc : FVec Ideal S128x512 .f32) (ix2 r k)
      = Cert.MlpAttn.maskedRow (fun k' => x3 (ix3 0 r k')) (fun k' => sc (ix2 r k')) k := by
  unfold Cert.MlpAttn.maskedRow
  show Scalar.select (IntOp.cmpi .eq (shapeCast S128x512 x3 hc (ix2 r k)) 0#32) _ _ = _
  rw [drop_128x512 x3 hc r k]
  rfl

/-- The softmax of the rows of a [128,512] array, as the operations compute it, at (r, k): the row's softmax. -/
private theorem softmax_apply (m : FVec Ideal S128x512 .f32) (hr : S128x512.Reduces [1] S128) (hc : S128.ShapeCasts S128x1)
    (hb : S128x1.Broadcasts S128x512) (r : Fin 128) (k : Fin 512) :
    divf
        (exp (subf m (broadcastTo S128x512 (shapeCast S128x1 (multiReduction (F := Ideal) .maximumf [1] S128 m 0xFF800000#32 hr (.inl rfl) rfl) hc) hb)))
        (broadcastTo S128x512 (shapeCast S128x1 (multiReduction (F := Ideal) .add [1] S128
          (exp (subf m (broadcastTo S128x512 (shapeCast S128x1 (multiReduction (F := Ideal) .maximumf [1] S128 m 0xFF800000#32 hr (.inl rfl) rfl) hc) hb)))
          0x00000000#32 hr (.inl rfl) rfl) hc) hb) (ix2 r k)
      = Cert.MlpAttn.softmaxRow (fun k' => m (ix2 r k')) k := by
  unfold Cert.MlpAttn.softmaxRow
  -- one exponential, at any key of the row
  have he : ∀ k' : Fin 512,
      (exp (subf m (broadcastTo S128x512 (shapeCast S128x1 (multiReduction (F := Ideal) .maximumf [1] S128 m 0xFF800000#32 hr (.inl rfl) rfl) hc) hb)) : FVec Ideal S128x512 .f32) (ix2 r k')
        = Ideal.exp (m (ix2 r k') - (Finset.univ : Finset (Fin 512)).fold max Cert.MlpAttn.negInf (fun k'' => m (ix2 r k''))) :=
    fun k' => congrArg (fun t => Ideal.exp (m (ix2 r k') - t)) (rowmax_apply m hr hc hb r k')
  refine congrArg₂ Ideal.div (he k) ((rowsum_apply _ hr hc hb r k).trans ?_)
  exact Finset.sum_congr rfl fun k' _ => he k'

/-- The query rows' projection by the query half of the first weight, plus the first bias. -/
theorem pay6_apply (x0 : Vec Ideal S1x128x256 .f32) (x4 : Vec Ideal S256x256 .f32) (x8 : Vec Ideal S1x256 .f32)
    (r : Fin 128) (h : Fin 256) :
    k0_pay6 (F := Ideal) x0 x4 x8 (ix2 r h) = (∑ d : Fin 256, x0 (ix3 0 r d) * x4 (ix2 d h)) + x8 (ix2 0 h) := by
  unfold k0_pay6
  refine congrArg₂ (· + ·) ((matmul6_apply _ _ r h).trans ?_) ((bcast_row_256 _ _ r h).trans (shapeCast_same_apply x8 _ (ix2 0 h)))
  refine Finset.sum_congr rfl fun d _ => ?_
  exact congrArg₂ (· * ·) (drop_128x256 x0 _ r d) (shapeCast_same_apply x4 _ (ix2 d h))

/-- The key rows' projection by the key half of the first weight. -/
theorem pay7_apply (x1 : Vec Ideal S1x512x256 .f32) (x5 : Vec Ideal S256x256 .f32) (k : Fin 512) (h : Fin 256) :
    k0_pay7 (F := Ideal) x1 x5 (ix2 k h) = ∑ d : Fin 256, x1 (ix3 0 k d) * x5 (ix2 d h) := by
  unfold k0_pay7
  refine (shapeCast_same_apply _ _ _).trans ?_
  refine (matmul7_apply _ _ k h).trans ?_
  refine Finset.sum_congr rfl fun d _ => ?_
  exact congrArg₂ (· * ·) (drop_512x256 x1 _ k d) (shapeCast_same_apply x5 _ (ix2 d h))

/-- The masked softmax of row r of a [128, 512] array of similarities. -/
theorem pay15_apply (x3 : Vec Ideal S1x128x512 .i32) (sc : Vec Ideal S128x512 .f32) (r : Fin 128) (k : Fin 512) :
    k0_pay15 (F := Ideal) x3 sc (ix2 r k)
      = Cert.MlpAttn.softmaxRow (Cert.MlpAttn.maskedRow (fun k' => x3 (ix3 0 r k')) (fun k' => sc (ix2 r k'))) k := by
  unfold k0_pay15
  refine (softmax_apply _ _ _ _ r k).trans ?_
  refine congrArg (fun s => Cert.MlpAttn.softmaxRow s k) (funext fun k' => ?_)
  exact masked_apply x3 sc _ r k'

/-- The same weights with the block's leading unit axis. -/
theorem pay16_apply (x3 : Vec Ideal S1x128x512 .i32) (sc : Vec Ideal S128x512 .f32) (r : Fin 128) (k : Fin 512) :
    k0_pay16 (F := Ideal) x3 sc (ix3 0 r k) = k0_pay15 (F := Ideal) x3 sc (ix2 r k) := by
  unfold k0_pay16
  exact addUnit_128x512 _ _ r k

/-- The weights' product with the value rows. -/
theorem pay1_apply (a : FVec Ideal S128x512 .f32) (x2 : Vec Ideal S1x512x256 .f32) (r : Fin 128) (d : Fin 256) :
    k0_pay1 (F := Ideal) a x2 (ix3 0 r d) = ∑ k : Fin 512, a (ix2 r k) * x2 (ix3 0 k d) := by
  unfold k0_pay1
  refine (addUnit_128x256 _ _ r d).trans ?_
  refine (matmul1_apply _ _ r d).trans ?_
  refine Finset.sum_congr rfl fun k _ => ?_
  exact congrArg (a (ix2 r k) * ·) (drop_512x256 x2 _ k d)

end Cert.KernelIdeal.PayRest

end
-- ==== Proof.Pieces.lean ====
/-
  What one grid point leaves in its two output blocks, as functions of the point's input blocks.

  The body writes the keys' projection to a scratch array and reads it back 128 rows at a time; the four
  chunks' similarities go to four column slices of a second scratch array, which is then read whole,
  masked, and normalised row by row.  Read back through these stores, row r of the weights block is the
  attention row of the pairs' pre-activations (query projection + first bias) + key projection, and the
  output block is its product with the value rows.
-/
import proofs.«405893_j69303592288275_3_alg».proof.Proof.Gen.KernelIdeal.Frame
import proofs.«405893_j69303592288275_3_alg».proof.Proof.PayScore
import proofs.«405893_j69303592288275_3_alg».proof.Proof.PayRest
import proofs.«405893_j69303592288275_3_alg».proof.Proof.Spec
import Idealize.ShloMosaic.Lib.Pipeline.Value
set_option maxRecDepth 16384

noncomputable section

namespace Cert.KernelIdeal.Pieces

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first layer's pre-activation of the pair (query row r, key k), from the point's blocks: the bias is
    added to the query's projection before the key's projection is. -/
abbrev blkPre (x0 : Vec Ideal S1x128x256 .f32) (x1 : Vec Ideal S1x512x256 .f32) (x4 x5 : Vec Ideal S256x256 .f32)
    (x8 : Vec Ideal S1x256 .f32) (r : Fin 128) (k : Fin 512) (h : Fin 256) : EReal :=
  ((∑ d : Fin 256, x0 (ix3 0 r d) * x4 (ix2 d h)) + x8 (ix2 0 h)) + ∑ d : Fin 256, x1 (ix3 0 k d) * x5 (ix2 d h)

/-- Row r of the attention weights, from the point's blocks. -/
abbrev blkAttn (x0 : Vec Ideal S1x128x256 .f32) (x1 : Vec Ideal S1x512x256 .f32) (x3 : Vec Ideal S1x128x512 .i32)
    (x4 x5 : Vec Ideal S256x256 .f32) (x6 : Vec Ideal S256x128 .f32) (x7 : Vec Ideal S1x128 .f32) (x8 : Vec Ideal S1x256 .f32)
    (x9 : Vec Ideal S1x128 .f32) (x10 : Vec Ideal S1x1 .f32) (r : Fin 128) : Fin 512 → EReal :=
  Cert.MlpAttn.attnRow (fun k => blkPre x0 x1 x4 x5 x8 r k) (fun k => x3 (ix3 0 r k)) (fun h j => x6 (ix2 h j))
    (fun j => x9 (ix2 0 j)) (fun j => x7 (ix2 0 j)) (x10 (ix2 0 0))

theorem hz2 : (![0, 0] : Fin 2 → Nat) = fun _ => 0 := funext fun a => by fin_cases a <;> rfl
theorem hz3 : (![0, 0, 0] : Fin 3 → Nat) = fun _ => 0 := funext fun a => by fin_cases a <;> rfl

/-- Rows o .. o+127 of the keys' projection, read back from the array it was stored to whole. -/
theorem kp_rows {κ : Kind} (v16 : View sig κ .vmem S512x256 .bf16) (KP : FVec Ideal S512x256 .bf16) (o : Nat) (q)
    (b : Fin 128) (h : Fin 256) (k : Fin 512) (hk : k.val = o + b.val) :
    v16.readCov (Val := Elt Ideal) [⟨Rect.unit ![0, 0] S512x256.size inb_S512x256_S512x256_0_0, KP⟩]
      (Rect.unit (s := S512x256) ![o, 0] S128x256.size q).toLoadRect (ix2 b h) = KP (ix2 k h) := by
  rw [View.readCov_eq_canon', View.canon_unit_zero hz2]
  refine congrArg KP (funext fun a => Fin.ext ?_)
  match a with
  | ⟨0, _⟩ => show o + 1 * b.val = k.val; omega
  | ⟨1, _⟩ => show 0 + 1 * h.val = h.val; omega

/-- One chunk's store, read at a local pair: the stored similarity is the similarity of the array's pair under it. -/
theorem chunk_piece {κ : Kind} (v16 : View sig κ .vmem S512x256 .bf16)
    (x6 : Vec Ideal S256x128 .f32) (x7 x9 : Vec Ideal S1x128 .f32) (x10 : Vec Ideal S1x1 .f32)
    (A : FVec Ideal S128x256 .bf16) (KP : FVec Ideal S512x256 .bf16) (o : Nat) (ho : o + 128 ≤ 512) (q) (pf) (x : S128x128.Idx) :
    Cert.KernelIdeal.PayScore.chunkScore x6 x7 x9 x10 A
        (v16.readCov (Val := Elt Ideal) [⟨Rect.unit ![0, 0] S512x256.size inb_S512x256_S512x256_0_0, KP⟩]
          (Rect.unit (s := S512x256) ![o, 0] S128x256.size q).toLoadRect) (x 0) (x 1)
      = Cert.MlpAttn.pairScore
          (fun h => A (ix2 ((Rect.unit (s := S128x512) ![0, o] S128x128.size pf).emb x 0) h)
            + KP (ix2 ((Rect.unit (s := S128x512) ![0, o] S128x128.size pf).emb x 1) h))
          (fun h j => x6 (ix2 h j)) (fun j => x9 (ix2 0 j)) (fun j => x7 (ix2 0 j)) (x10 (ix2 0 0)) := by
  refine congrArg (fun f => Cert.MlpAttn.pairScore f (fun h j => x6 (ix2 h j)) (fun j => x9 (ix2 0 j)) (fun j => x7 (ix2 0 j)) (x10 (ix2 0 0)))
    (funext fun h => ?_)
  refine congrArg₂ (· + ·) (congrArg (fun z : Fin 128 => A (ix2 z h)) (Fin.ext ?_)) (kp_rows v16 KP o q (x 1) h _ ?_)
  · show (x 0).val = 0 + 1 * (x 0).val; omega
  · show o + 1 * (x 1).val = o + (x 1).val; omega

/-- What the whole-array load of the similarities reads: the four chunks' stores, newest first, each a
    [128, 128] column slice holding its chunk's similarities of the query-side vectors A and rows of KP. -/
abbrev scoresRead {κ : Kind} (v15 : View sig κ .vmem S128x512 .f32) (v16 : View sig κ .vmem S512x256 .bf16)
    (x6 : Vec Ideal S256x128 .f32) (x7 x9 : Vec Ideal S1x128 .f32) (x10 : Vec Ideal S1x1 .f32)
    (A : FVec Ideal S128x256 .bf16) (KP : FVec Ideal S512x256 .bf16)
    (p0 : ∀ a, (![0, 0] : Fin 2 → Nat) a + S128x128.size a ≤ S128x512.size a) (p1 : ∀ a, (![0, 128] : Fin 2 → Nat) a + S128x128.size a ≤ S128x512.size a) (p2 : ∀ a, (![0, 256] : Fin 2 → Nat) a + S128x128.size a ≤ S128x512.size a) (p3 : ∀ a, (![0, 384] : Fin 2 → Nat) a + S128x128.size a ≤ S128x512.size a)
    (q0 : ∀ a, (![0, 0] : Fin 2 → Nat) a + S128x256.size a ≤ S512x256.size a) (q1 : ∀ a, (![128, 0] : Fin 2 → Nat) a + S128x256.size a ≤ S512x256.size a) (q2 : ∀ a, (![256, 0] : Fin 2 → Nat) a + S128x256.size a ≤ S512x256.size a) (q3 : ∀ a, (![384, 0] : Fin 2 → Nat) a + S128x256.size a ≤ S512x256.size a) : Vec Ideal S128x512 .f32 :=
  v15.readCov (Val := Elt Ideal)
      [⟨Rect.unit (s := S128x512) ![0, 384] S128x128.size p3,
          k0_pay14 (k0_pay2 x9) (k0_pay3 x10) (k0_pay4 x6) (k0_pay5 x7)
            (k0_pay13 A (v16.readCov [⟨Rect.unit ![0, 0] S512x256.size inb_S512x256_S512x256_0_0, KP⟩]
              (Rect.unit (s := S512x256) ![384, 0] S128x256.size q3).toLoadRect))
            (FloatOps.ofBits FTy.bf16 0#16)⟩,
        ⟨Rect.unit (s := S128x512) ![0, 256] S128x128.size p2,
          k0_pay12 (k0_pay2 x9) (k0_pay3 x10) (k0_pay4 x6) (k0_pay5 x7) A
            (v16.readCov [⟨Rect.unit ![0, 0] S512x256.size inb_S512x256_S512x256_0_0, KP⟩]
              (Rect.unit (s := S512x256) ![256, 0] S128x256.size q2).toLoadRect)⟩,
        ⟨Rect.unit (s := S128x512) ![0, 128] S128x128.size p1,
          k0_pay11 (k0_pay3 x10)
            (k0_pay9 (k0_pay2 x9) (k0_pay4 x6) A
              (v16.readCov [⟨Rect.unit ![0, 0] S512x256.size inb_S512x256_S512x256_0_0, KP⟩]
                (Rect.unit (s := S512x256) ![128, 0] S128x256.size q1).toLoadRect))
            (k0_pay10 (k0_pay5 x7))⟩,
        ⟨Rect.unit (s := S128x512) ![0, 0] S128x128.size p0,
          k0_pay8 (k0_pay2 x9) (k0_pay3 x10) (k0_pay4 x6) (k0_pay5 x7) A
            (v16.readCov [⟨Rect.unit ![0, 0] S512x256.size inb_S512x256_S512x256_0_0, KP⟩]
              (Rect.unit (s := S512x256) ![0, 0] S128x256.size q0).toLoadRect)⟩]
      (Rect.unit ![0, 0] S128x512.size inb_S128x512_S128x512_0_0).toLoadRect

/-- The four stores tile the [128, 512] array, and each holds the similarities of the pairs under it: the array
    read back at (r, k) is the similarity of the pair's pre-activation A[r, ·] + KP[k, ·]. -/
theorem scores_apply {κ : Kind} (v15 : View sig κ .vmem S128x512 .f32) (v16 : View sig κ .vmem S512x256 .bf16)
    (x6 : Vec Ideal S256x128 .f32) (x7 x9 : Vec Ideal S1x128 .f32) (x10 : Vec Ideal S1x1 .f32)
    (A : FVec Ideal S128x256 .bf16) (KP : FVec Ideal S512x256 .bf16)
    (p0 : ∀ a, (![0, 0] : Fin 2 → Nat) a + S128x128.size a ≤ S128x512.size a) (p1 : ∀ a, (![0, 128] : Fin 2 → Nat) a + S128x128.size a ≤ S128x512.size a) (p2 : ∀ a, (![0, 256] : Fin 2 → Nat) a + S128x128.size a ≤ S128x512.size a) (p3 : ∀ a, (![0, 384] : Fin 2 → Nat) a + S128x128.size a ≤ S128x512.size a)
    (q0 : ∀ a, (![0, 0] : Fin 2 → Nat) a + S128x256.size a ≤ S512x256.size a) (q1 : ∀ a, (![128, 0] : Fin 2 → Nat) a + S128x256.size a ≤ S512x256.size a) (q2 : ∀ a, (![256, 0] : Fin 2 → Nat) a + S128x256.size a ≤ S512x256.size a) (q3 : ∀ a, (![384, 0] : Fin 2 → Nat) a + S128x256.size a ≤ S512x256.size a) (r : Fin 128) (k : Fin 512) :
    scoresRead v15 v16 x6 x7 x9 x10 A KP p0 p1 p2 p3 q0 q1 q2 q3 (ix2 r k)
    = Cert.MlpAttn.pairScore (fun h => A (ix2 r h) + KP (ix2 k h)) (fun h j => x6 (ix2 h j)) (fun j => x9 (ix2 0 j))
        (fun j => x7 (ix2 0 j)) (x10 (ix2 0 0)) := by
  unfold scoresRead
  rw [View.readCov_eq_canon']
  beta_reduce
  rw [show (Rect.unit (s := S128x512) ![0, 0] S128x512.size inb_S128x512_S128x512_0_0).toLoadRect.idx (ix2 r k) = ix2 r k from
    funext fun a => Fin.ext (by match a with
      | ⟨0, _⟩ => show 0 + 1 * r.val = r.val; omega
      | ⟨1, _⟩ => show 0 + 1 * k.val = k.val; omega)]
  refine (View.canon_apply_of_pieces (fun j : S128x512.Idx => Cert.MlpAttn.pairScore (fun h => A (ix2 (j 0) h) + KP (ix2 (j 1) h))
    (fun h j => x6 (ix2 h j)) (fun j => x9 (ix2 0 j)) (fun j => x7 (ix2 0 j)) (x10 (ix2 0 0))) _ ?_ (ix2 r k)
    (View.cover_of_tiledL (s := S128x512) _ S128x128.size (by sl_kernel_rfl) _)).trans rfl
  intro p hp x
  simp only [List.mem_cons, List.not_mem_nil, or_false] at hp
  rcases hp with rfl | rfl | rfl | rfl
  · exact ((congrArg _ (eq_ix2 x)).trans (Cert.KernelIdeal.PayScore.pay14_apply x6 x7 x9 x10 A _ (x 0) (x 1))).trans
      (chunk_piece v16 x6 x7 x9 x10 A KP 384 (by omega) q3 p3 x)
  · exact ((congrArg _ (eq_ix2 x)).trans (Cert.KernelIdeal.PayScore.pay12_apply x6 x7 x9 x10 A _ (x 0) (x 1))).trans
      (chunk_piece v16 x6 x7 x9 x10 A KP 256 (by omega) q2 p2 x)
  · exact ((congrArg _ (eq_ix2 x)).trans (Cert.KernelIdeal.PayScore.pay11_apply x6 x7 x9 x10 A _ (x 0) (x 1))).trans
      (chunk_piece v16 x6 x7 x9 x10 A KP 128 (by omega) q1 p1 x)
  · exact ((congrArg _ (eq_ix2 x)).trans (Cert.KernelIdeal.PayScore.pay8_apply x6 x7 x9 x10 A _ (x 0) (x 1))).trans
      (chunk_piece v16 x6 x7 x9 x10 A KP 0 (by omega) q0 p0 x)

/-- Row r of the masked softmax of the similarities read back is row r of the attention weights. -/
theorem attn_row {κ : Kind} (v15 : View sig κ .vmem S128x512 .f32) (v16 : View sig κ .vmem S512x256 .bf16)
    (x0 : Vec Ideal S1x128x256 .f32) (x1 : Vec Ideal S1x512x256 .f32) (x3 : Vec Ideal S1x128x512 .i32)
    (x4 x5 : Vec Ideal S256x256 .f32) (x6 : Vec Ideal S256x128 .f32) (x7 : Vec Ideal S1x128 .f32) (x8 : Vec Ideal S1x256 .f32)
    (x9 : Vec Ideal S1x128 .f32) (x10 : Vec Ideal S1x1 .f32)
    (p0 : ∀ a, (![0, 0] : Fin 2 → Nat) a + S128x128.size a ≤ S128x512.size a) (p1 : ∀ a, (![0, 128] : Fin 2 → Nat) a + S128x128.size a ≤ S128x512.size a) (p2 : ∀ a, (![0, 256] : Fin 2 → Nat) a + S128x128.size a ≤ S128x512.size a) (p3 : ∀ a, (![0, 384] : Fin 2 → Nat) a + S128x128.size a ≤ S128x512.size a)
    (q0 : ∀ a, (![0, 0] : Fin 2 → Nat) a + S128x256.size a ≤ S512x256.size a) (q1 : ∀ a, (![128, 0] : Fin 2 → Nat) a + S128x256.size a ≤ S512x256.size a) (q2 : ∀ a, (![256, 0] : Fin 2 → Nat) a + S128x256.size a ≤ S512x256.size a) (q3 : ∀ a, (![384, 0] : Fin 2 → Nat) a + S128x256.size a ≤ S512x256.size a) (r : Fin 128) (k : Fin 512) :
    k0_pay15 (F := Ideal) x3 (scoresRead v15 v16 x6 x7 x9 x10 (k0_pay6 x0 x4 x8) (k0_pay7 x1 x5) p0 p1 p2 p3 q0 q1 q2 q3) (ix2 r k)
      = blkAttn x0 x1 x3 x4 x5 x6 x7 x8 x9 x10 r k := by
  refine (Cert.KernelIdeal.PayRest.pay15_apply x3 _ r k).trans ?_
  refine congrArg (fun s => Cert.MlpAttn.softmaxRow (Cert.MlpAttn.maskedRow (fun k' => x3 (ix3 0 r k')) s) k) (funext fun k' => ?_)
  refine (scores_apply v15 v16 x6 x7 x9 x10 (k0_pay6 x0 x4 x8) (k0_pay7 x1 x5) p0 p1 p2 p3 q0 q1 q2 q3 r k').trans ?_
  refine congrArg (fun f => Cert.MlpAttn.pairScore f (fun h j => x6 (ix2 h j)) (fun j => x9 (ix2 0 j)) (fun j => x7 (ix2 0 j)) (x10 (ix2 0 0)))
    (funext fun h => ?_)
  show k0_pay6 x0 x4 x8 (ix2 r h) + k0_pay7 x1 x5 (ix2 k' h) = blkPre x0 x1 x4 x5 x8 r k' h
  rw [Cert.KernelIdeal.PayRest.pay6_apply, Cert.KernelIdeal.PayRest.pay7_apply]

set_option maxHeartbeats 1000000 in
/-- The weights block: row (y 1) of the attention weights at key (y 2). -/
theorem out12_eq (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x128x512 .i32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1 .f32) (harg12 : arg12.IsWhole) (arg13 : Memref sig .tc .vmem S1x128x256 .f32) (harg13 : arg13.IsWhole) (arg14 : Memref sig .tc .vmem S1x128x512 .f32) (harg14 : arg14.IsWhole) (arg15 : Memref sig .tc .vmem S128x512 .f32) (harg15 : arg15.IsWhole) (arg16 : Memref sig .tc .vmem S512x256 .bf16) (harg16 : arg16.IsWhole)
    (x0 : Vec Ideal S1x128x256 .f32) (x1 : Vec Ideal S1x512x256 .f32) (x2 : Vec Ideal S1x512x256 .f32) (x3 : Vec Ideal S1x128x512 .i32) (x4 : Vec Ideal S256x256 .f32) (x5 : Vec Ideal S256x256 .f32) (x6 : Vec Ideal S256x128 .f32) (x7 : Vec Ideal S1x128 .f32) (x8 : Vec Ideal S1x256 .f32) (x9 : Vec Ideal S1x128 .f32) (x10 : Vec Ideal S1x1 .f32) (y : S1x128x512.Idx) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = blkAttn x0 x1 x3 x4 x5 x6 x7 x8 x9 x10 (y 1) (y 2) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x128x256) hz3, View.ld_unit_zero (S := S1x512x256) hz3, View.ld_unit_zero (S := S1x128x512) hz3, View.ld_unit_zero (S := S256x256) hz2, View.ld_unit_zero (S := S256x128) hz2, View.ld_unit_zero (S := S1x128) hz2, View.ld_unit_zero (S := S1x256) hz2, View.ld_unit_zero (S := S1x1) hz2]
  obtain ⟨a, r, k, rfl⟩ : ∃ (a : Fin 1) (r : Fin 128) (k : Fin 512), y = ix3 a r k := ⟨y 0, y 1, y 2, eq_ix3 y⟩
  obtain rfl : a = 0 := Subsingleton.elim _ _
  refine (Cert.KernelIdeal.PayRest.pay16_apply x3 _ r k).trans ?_
  exact attn_row arg15.view arg16.view x0 x1 x3 x4 x5 x6 x7 x8 x9 x10 _ _ _ _ _ _ _ _ r k

set_option maxHeartbeats 1000000 in
/-- The output block: the weights' row times the value rows. -/
theorem out11_eq (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x128x512 .i32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1 .f32) (harg12 : arg12.IsWhole) (arg13 : Memref sig .tc .vmem S1x128x256 .f32) (harg13 : arg13.IsWhole) (arg14 : Memref sig .tc .vmem S1x128x512 .f32) (harg14 : arg14.IsWhole) (arg15 : Memref sig .tc .vmem S128x512 .f32) (harg15 : arg15.IsWhole) (arg16 : Memref sig .tc .vmem S512x256 .bf16) (harg16 : arg16.IsWhole)
    (x0 : Vec Ideal S1x128x256 .f32) (x1 : Vec Ideal S1x512x256 .f32) (x2 : Vec Ideal S1x512x256 .f32) (x3 : Vec Ideal S1x128x512 .i32) (x4 : Vec Ideal S256x256 .f32) (x5 : Vec Ideal S256x256 .f32) (x6 : Vec Ideal S256x128 .f32) (x7 : Vec Ideal S1x128 .f32) (x8 : Vec Ideal S1x256 .f32) (x9 : Vec Ideal S1x128 .f32) (x10 : Vec Ideal S1x1 .f32) (y : S1x128x256.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = Cert.MlpAttn.outRow (blkAttn x0 x1 x3 x4 x5 x6 x7 x8 x9 x10 (y 1)) (fun k d => x2 (ix3 0 k d)) (y 2) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x128x256) hz3, View.ld_unit_zero (S := S1x512x256) hz3, View.ld_unit_zero (S := S1x128x512) hz3, View.ld_unit_zero (S := S256x256) hz2, View.ld_unit_zero (S := S256x128) hz2, View.ld_unit_zero (S := S1x128) hz2, View.ld_unit_zero (S := S1x256) hz2, View.ld_unit_zero (S := S1x1) hz2]
  obtain ⟨a, r, d, rfl⟩ : ∃ (a : Fin 1) (r : Fin 128) (d : Fin 256), y = ix3 a r d := ⟨y 0, y 1, y 2, eq_ix3 y⟩
  obtain rfl : a = 0 := Subsingleton.elim _ _
  refine (Cert.KernelIdeal.PayRest.pay1_apply _ x2 r d).trans ?_
  refine Finset.sum_congr rfl fun k _ => congrArg (· * x2 (ix3 0 k d)) ?_
  exact attn_row arg15.view arg16.view x0 x1 x3 x4 x5 x6 x7 x8 x9 x10 _ _ _ _ _ _ _ _ r k

end Cert.KernelIdeal.Pieces

end
-- ==== Proof.Blocks.lean ====
/-
  From blocks to arrays: after the run the two result arrays are the specification's.

  Grid point t = (b, i) of the 2 × 4 grid works on batch b and the 128 query rows 128·i .. 128·i+127: the
  query block, the mask block and both output blocks are block (b, i, 0) of their arrays, the key and value
  blocks are block (b, 0, 0) (all 512 rows of batch b), and every parameter block is its whole array.  The
  parameter arrays the body sees are the host's re-layouts of the arguments: the two halves of the first
  weight by rows, the biases as rows, and the last layer's column as a row.  So row r of the block a point
  writes is the specification's row 128·i + r of batch b, and the eight points' blocks tile both arrays.
-/
import proofs.«405893_j69303592288275_3_alg».proof.Proof.Gen.KernelIdeal.Value
import proofs.«405893_j69303592288275_3_alg».proof.Proof.Pieces
import proofs.«405893_j69303592288275_3_alg».proof.Proof.Spec
import Idealize.ShloMosaic.Lib.Pipeline.Value
import Idealize.ShloMosaic.Lib.StableHlo.Run
set_option maxRecDepth 16384

noncomputable section

namespace Cert.KernelIdeal.Blocks

open Cert.KernelIdeal Cert.KernelIdeal.Gen Cert.KernelIdeal.Value Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The block index maps over the eight grid points -/

/-- The query, mask and both output windows sit at block (b, i, 0) with b ≤ 1 and i ≤ 3, the key and value
    windows at block (b, 0, 0) of the same batch, and every parameter window at its only block. -/
theorem idx_facts : ∀ t : Fin cfg0.N,
    (win0_0.index t (0 : Fin 3) = win0_12.index t (0 : Fin 3) ∧ win0_0.index t (1 : Fin 3) = win0_12.index t (1 : Fin 3) ∧ win0_0.index t (2 : Fin 3) = 0)
    ∧ (win0_3.index t (0 : Fin 3) = win0_12.index t (0 : Fin 3) ∧ win0_3.index t (1 : Fin 3) = win0_12.index t (1 : Fin 3) ∧ win0_3.index t (2 : Fin 3) = 0)
    ∧ (win0_11.index t (0 : Fin 3) = win0_12.index t (0 : Fin 3) ∧ win0_11.index t (1 : Fin 3) = win0_12.index t (1 : Fin 3) ∧ win0_11.index t (2 : Fin 3) = 0)
    ∧ (win0_1.index t (0 : Fin 3) = win0_12.index t (0 : Fin 3) ∧ win0_1.index t (1 : Fin 3) = 0 ∧ win0_1.index t (2 : Fin 3) = 0)
    ∧ (win0_2.index t (0 : Fin 3) = win0_12.index t (0 : Fin 3) ∧ win0_2.index t (1 : Fin 3) = 0 ∧ win0_2.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_12.index t (0 : Fin 3) ≤ 1 ∧ win0_12.index t (1 : Fin 3) ≤ 3 ∧ win0_12.index t (2 : Fin 3) = 0) :=
  (by decide +kernel : ∀ t : Fin grid0.N, _)

/-- Every block (b, i, 0) of the weights array is some point's. -/
theorem idx_onto12 : ∀ (b : Fin 2) (i : Fin 4), ∃ t : Fin cfg0.N, win0_12.index t = ![b.val, i.val, 0] :=
  (by decide +kernel : ∀ (b : Fin 2) (i : Fin 4), ∃ t : Fin grid0.N, win0_12.index t = ![b.val, i.val, 0])

/-- Every block (b, i, 0) of the output array is some point's. -/
theorem idx_onto11 : ∀ (b : Fin 2) (i : Fin 4), ∃ t : Fin cfg0.N, win0_11.index t = ![b.val, i.val, 0] :=
  (by decide +kernel : ∀ (b : Fin 2) (i : Fin 4), ∃ t : Fin grid0.N, win0_11.index t = ![b.val, i.val, 0])

/-! ## One row of a point's blocks against the whole arrays -/

section row
open Cert.MlpAttn Cert.KernelIdeal.Pieces

/-- Row r of a point's weights block is row q of batch b of the specification's weights, when the point's blocks
    are the matching rows of the arrays: the query and mask blocks row q of batch b, the key block batch b, the
    two first-layer blocks the query and key halves of the first weight, the bias and last-layer blocks the
    vectors as rows. -/
theorem blkAttn_eq (Q K : Sseq.Idx → EReal) (M : Spair.Idx → BitVec 32) (W1 : Sw1.Idx → EReal) (B1 : Sb1.Idx → EReal)
    (W2 : Sw2.Idx → EReal) (B2 : Sb2.Idx → EReal) (W3 : Sw3.Idx → EReal) (B3 : Sb3.Idx → EReal)
    (x0 : Vec Ideal S1x128x256 .f32) (x1 : Vec Ideal S1x512x256 .f32) (x3 : Vec Ideal S1x128x512 .i32)
    (x4 x5 : Vec Ideal S256x256 .f32) (x6 : Vec Ideal S256x128 .f32) (x7 : Vec Ideal S1x128 .f32) (x8 : Vec Ideal S1x256 .f32)
    (x9 : Vec Ideal S1x128 .f32) (x10 : Vec Ideal S1x1 .f32) (b : Fin 2) (q : Fin 512) (r : Fin 128)
    (h0 : ∀ d : Fin 256, x0 (ix3 0 r d) = Q (ix3 b q d))
    (h1 : ∀ (k : Fin 512) (d : Fin 256), x1 (ix3 0 k d) = K (ix3 b k d))
    (h3 : ∀ k : Fin 512, x3 (ix3 0 r k) = M (ix3 b q k))
    (h4 : ∀ (d h : Fin 256), x4 (ix2 d h) = W1 (ix2 (rowQ d) h))
    (h5 : ∀ (d h : Fin 256), x5 (ix2 d h) = W1 (ix2 (rowK d) h))
    (h6 : ∀ (h : Fin 256) (j : Fin 128), x6 (ix2 h j) = W2 (ix2 h j))
    (h7 : ∀ j : Fin 128, x7 (ix2 0 j) = W3 (ix2 j 0))
    (h8 : ∀ h : Fin 256, x8 (ix2 0 h) = B1 (ix1 h))
    (h9 : ∀ j : Fin 128, x9 (ix2 0 j) = B2 (ix1 j))
    (h10 : x10 (ix2 0 0) = B3 (ix1 0)) :
    blkAttn x0 x1 x3 x4 x5 x6 x7 x8 x9 x10 r = fun k => attn Q K M W1 B1 W2 B2 W3 B3 (ix3 b q k) := by
  have e1 : (fun k => blkPre x0 x1 x4 x5 x8 r k) = fun k => preAct Q K W1 B1 b q k := by
    funext k h
    show ((∑ d : Fin 256, x0 (ix3 0 r d) * x4 (ix2 d h)) + x8 (ix2 0 h)) + ∑ d : Fin 256, x1 (ix3 0 k d) * x5 (ix2 d h)
      = (∑ d : Fin 256, Q (ix3 b q d) * W1 (ix2 (rowQ d) h)) + (∑ d : Fin 256, K (ix3 b k d) * W1 (ix2 (rowK d) h)) + B1 (ix1 h)
    rw [pre_assoc, h8 h]
    refine congrArg₂ (· + ·) (congrArg₂ (· + ·) ?_ ?_) rfl
    · exact Finset.sum_congr rfl fun d _ => by rw [h0 d, h4 d h]
    · exact Finset.sum_congr rfl fun d _ => by rw [h1 k d, h5 d h]
  have e3 : (fun k => x3 (ix3 0 r k)) = fun k => M (ix3 b q k) := funext h3
  have e6 : (fun h j => x6 (ix2 h j)) = fun h j => W2 (ix2 h j) := funext fun h => funext fun j => h6 h j
  have e9 : (fun j => x9 (ix2 0 j)) = fun j => B2 (ix1 j) := funext h9
  have e7 : (fun j => x7 (ix2 0 j)) = fun j => W3 (ix2 j 0) := funext h7
  show attnRow (fun k => blkPre x0 x1 x4 x5 x8 r k) (fun k => x3 (ix3 0 r k)) (fun h j => x6 (ix2 h j))
      (fun j => x9 (ix2 0 j)) (fun j => x7 (ix2 0 j)) (x10 (ix2 0 0))
    = attnRow (fun k => preAct Q K W1 B1 b q k) (fun k => M (ix3 b q k)) (fun h j => W2 (ix2 h j))
      (fun j => B2 (ix1 j)) (fun j => W3 (ix2 j 0)) (B3 (ix1 0))
  rw [e1, e3, e6, e9, e7, h10]

end row

/-! ## The parameter arrays the region finds: the host's re-layouts of the arguments -/

variable (m : (ℓ : Loc nD τ sig) → Buf (Elt Ideal) ℓ)

/-- The batch grid point t works on. -/
def batch (t : Fin cfg0.N) : Fin 2 := ⟨win0_12.index t (0 : Fin 3), by have := (idx_facts t).2.2.2.2.2.2.2.2.2.2.2.2.1; omega⟩

/-- The array row of query row r of grid point t's blocks. -/
def row (t : Fin cfg0.N) (r : Fin 128) : Fin 512 :=
  ⟨win0_12.index t (1 : Fin 3) * 128 + r.val, by have := (idx_facts t).2.2.2.2.2.2.2.2.2.2.2.2.2.1; have := r.isLt; omega⟩

/-- The query half of the first weight: rows 0 … 255 of the argument. -/
theorem V_wq (c : Dev nD) (d h : Fin 256) :
    (V m c main_v0 : S256x256.Idx → EReal) (ix2 d h) = (m ((c : Thread nD τ).loc main_arg4) : S512x256.Idx → EReal) (ix2 (Cert.MlpAttn.rowQ d) h) := by
  have e : (V m c main_v0 : S256x256.Idx → EReal)
      = extractStridedSlice S256x256 ![0, 0] (m ((c : Thread nD τ).loc main_arg4) : S512x256.Idx → EReal) slices_S512x256_S256x256_0_0 := by
    dsimp only [Gen.V, Gen.hostOps0]; after_results
  rw [e]
  refine extractStridedSlice_apply _ _ _ (ix2 d h) (ix2 (Cert.MlpAttn.rowQ d) h) fun a => ?_
  match a with
  | ⟨0, _⟩ => show d.val = 0 + d.val; omega
  | ⟨1, _⟩ => show h.val = 0 + h.val; omega

/-- The key half of the first weight: rows 256 … 511 of the argument. -/
theorem V_wk (c : Dev nD) (d h : Fin 256) :
    (V m c main_v1 : S256x256.Idx → EReal) (ix2 d h) = (m ((c : Thread nD τ).loc main_arg4) : S512x256.Idx → EReal) (ix2 (Cert.MlpAttn.rowK d) h) := by
  have e : (V m c main_v1 : S256x256.Idx → EReal)
      = extractStridedSlice S256x256 ![256, 0] (m ((c : Thread nD τ).loc main_arg4) : S512x256.Idx → EReal) slices_S512x256_S256x256_256_0 := by
    dsimp only [Gen.V, Gen.hostOps0]; after_results
  rw [e]
  refine extractStridedSlice_apply _ _ _ (ix2 d h) (ix2 (Cert.MlpAttn.rowK d) h) fun a => ?_
  match a with
  | ⟨0, _⟩ => show 256 + d.val = 256 + d.val; rfl
  | ⟨1, _⟩ => show h.val = 0 + h.val; omega

/-- The first bias as a row. -/
theorem V_b1 (c : Dev nD) (h : Fin 256) :
    (V m c main_v2 : S1x256.Idx → EReal) (ix2 0 h) = (m ((c : Thread nD τ).loc main_arg5) : S256.Idx → EReal) (ix1 h) := by
  have e : (V m c main_v2 : S1x256.Idx → EReal)
      = shapeCast S1x256 (m ((c : Thread nD τ).loc main_arg5) : S256.Idx → EReal) shapeCasts_S256_S1x256 := by
    dsimp only [Gen.V, Gen.hostOps0]; after_results; rfl
  rw [e]
  refine shapeCast_apply _ _ (ix2 0 h) (ix1 h) ?_
  rw [Shape.rowMajor_val_one, Shape.rowMajor_val_two]
  show h.val = 0 * 256 + h.val
  omega

/-- The second bias as a row. -/
theorem V_b2 (c : Dev nD) (j : Fin 128) :
    (V m c main_v3 : S1x128.Idx → EReal) (ix2 0 j) = (m ((c : Thread nD τ).loc main_arg7) : S128.Idx → EReal) (ix1 j) := by
  have e : (V m c main_v3 : S1x128.Idx → EReal)
      = shapeCast S1x128 (m ((c : Thread nD τ).loc main_arg7) : S128.Idx → EReal) shapeCasts_S128_S1x128 := by
    dsimp only [Gen.V, Gen.hostOps0]; after_results; rfl
  rw [e]
  refine shapeCast_apply _ _ (ix2 0 j) (ix1 j) ?_
  rw [Shape.rowMajor_val_one, Shape.rowMajor_val_two]
  show j.val = 0 * 128 + j.val
  omega

/-- The third bias as a one-entry row. -/
theorem V_b3 (c : Dev nD) :
    (V m c main_v4 : S1x1.Idx → EReal) (ix2 0 0) = (m ((c : Thread nD τ).loc main_arg9) : S1.Idx → EReal) (ix1 0) := by
  have e : (V m c main_v4 : S1x1.Idx → EReal)
      = shapeCast S1x1 (m ((c : Thread nD τ).loc main_arg9) : S1.Idx → EReal) shapeCasts_S1_S1x1 := by
    dsimp only [Gen.V, Gen.hostOps0]; after_results; rfl
  rw [e]
  refine shapeCast_apply _ _ (ix2 0 0) (ix1 0) ?_
  rw [Shape.rowMajor_val_one, Shape.rowMajor_val_two]
  rfl

/-- The last layer's column as a row. -/
theorem V_w3 (c : Dev nD) (j : Fin 128) :
    (V m c main_v5 : S1x128.Idx → EReal) (ix2 0 j) = (m ((c : Thread nD τ).loc main_arg8) : S128x1.Idx → EReal) (ix2 j 0) := by
  have e : (V m c main_v5 : S1x128.Idx → EReal)
      = shapeCast S1x128 (m ((c : Thread nD τ).loc main_arg8) : S128x1.Idx → EReal) shapeCasts_S128x1_S1x128 := by
    dsimp only [Gen.V, Gen.hostOps0]; after_results; rfl
  rw [e]
  refine shapeCast_apply _ _ (ix2 0 j) (ix2 j 0) ?_
  rw [Shape.rowMajor_val_two, Shape.rowMajor_val_two]
  show j.val * 1 + 0 = 0 * 128 + j.val
  omega

/-! ## The point's blocks as rows of the arrays -/

/-- The eleven input blocks of grid point t, at their literal types. -/
abbrev qblk (c : Dev nD) (t : Fin cfg0.N) : Vec Ideal S1x128x256 .f32 := iblk m c 0 t
abbrev kblk (c : Dev nD) (t : Fin cfg0.N) : Vec Ideal S1x512x256 .f32 := iblk m c 1 t
abbrev vblk (c : Dev nD) (t : Fin cfg0.N) : Vec Ideal S1x512x256 .f32 := iblk m c 2 t
abbrev mblk (c : Dev nD) (t : Fin cfg0.N) : Vec Ideal S1x128x512 .i32 := iblk m c 3 t
abbrev wqblk (c : Dev nD) (t : Fin cfg0.N) : Vec Ideal S256x256 .f32 := iblk m c 4 t
abbrev wkblk (c : Dev nD) (t : Fin cfg0.N) : Vec Ideal S256x256 .f32 := iblk m c 5 t
abbrev w2blk (c : Dev nD) (t : Fin cfg0.N) : Vec Ideal S256x128 .f32 := iblk m c 6 t
abbrev w3blk (c : Dev nD) (t : Fin cfg0.N) : Vec Ideal S1x128 .f32 := iblk m c 7 t
abbrev b1blk (c : Dev nD) (t : Fin cfg0.N) : Vec Ideal S1x256 .f32 := iblk m c 8 t
abbrev b2blk (c : Dev nD) (t : Fin cfg0.N) : Vec Ideal S1x128 .f32 := iblk m c 9 t
abbrev b3blk (c : Dev nD) (t : Fin cfg0.N) : Vec Ideal S1x1 .f32 := iblk m c 10 t

/-- Row r of the query block is row (row t r) of batch (batch t) of the query array. -/
theorem qblk_apply (c : Dev nD) (t : Fin cfg0.N) (r : Fin 128) (d : Fin 256) :
    qblk m c t (ix3 0 r d) = (m ((c : Thread nD τ).loc main_arg0) : S2x512x256.Idx → EReal) (ix3 (batch t) (row t r) d) := by
  obtain ⟨⟨e0, e1, e2⟩, -⟩ := idx_facts t
  show V m c main_arg0 (((cfg0.win 0).blk t).view.emb (ix3 0 r d)) = _
  rw [V_main_arg0]
  refine congrArg (m ((c : Thread nD τ).loc main_arg0) : S2x512x256.Idx → EReal) (funext fun a => Fin.ext ?_)
  match a with
  | ⟨0, _⟩ => show win0_0.index t (0 : Fin 3) * 1 + 1 * (0 : Fin 1).val = win0_12.index t (0 : Fin 3); omega
  | ⟨1, _⟩ => show win0_0.index t (1 : Fin 3) * 128 + 1 * r.val = win0_12.index t (1 : Fin 3) * 128 + r.val; omega
  | ⟨2, _⟩ => show win0_0.index t (2 : Fin 3) * 256 + 1 * d.val = d.val; omega

/-- Row r of the mask block is row (row t r) of batch (batch t) of the mask array. -/
theorem mblk_apply (c : Dev nD) (t : Fin cfg0.N) (r : Fin 128) (k : Fin 512) :
    mblk m c t (ix3 0 r k) = (m ((c : Thread nD τ).loc main_arg3) : S2x512x512.Idx → BitVec 32) (ix3 (batch t) (row t r) k) := by
  obtain ⟨-, ⟨e0, e1, e2⟩, -⟩ := idx_facts t
  show V m c main_arg3 (((cfg0.win 3).blk t).view.emb (ix3 0 r k)) = _
  rw [V_main_arg3]
  refine congrArg (m ((c : Thread nD τ).loc main_arg3) : S2x512x512.Idx → BitVec 32) (funext fun a => Fin.ext ?_)
  match a with
  | ⟨0, _⟩ => show win0_3.index t (0 : Fin 3) * 1 + 1 * (0 : Fin 1).val = win0_12.index t (0 : Fin 3); omega
  | ⟨1, _⟩ => show win0_3.index t (1 : Fin 3) * 128 + 1 * r.val = win0_12.index t (1 : Fin 3) * 128 + r.val; omega
  | ⟨2, _⟩ => show win0_3.index t (2 : Fin 3) * 512 + 1 * k.val = k.val; omega

/-- The key block is batch (batch t) of the key array. -/
theorem kblk_apply (c : Dev nD) (t : Fin cfg0.N) (k : Fin 512) (d : Fin 256) :
    kblk m c t (ix3 0 k d) = (m ((c : Thread nD τ).loc main_arg1) : S2x512x256.Idx → EReal) (ix3 (batch t) k d) := by
  obtain ⟨-, -, -, ⟨e0, e1, e2⟩, -⟩ := idx_facts t
  show V m c main_arg1 (((cfg0.win 1).blk t).view.emb (ix3 0 k d)) = _
  rw [V_main_arg1]
  refine congrArg (m ((c : Thread nD τ).loc main_arg1) : S2x512x256.Idx → EReal) (funext fun a => Fin.ext ?_)
  match a with
  | ⟨0, _⟩ => show win0_1.index t (0 : Fin 3) * 1 + 1 * (0 : Fin 1).val = win0_12.index t (0 : Fin 3); omega
  | ⟨1, _⟩ => show win0_1.index t (1 : Fin 3) * 512 + 1 * k.val = k.val; omega
  | ⟨2, _⟩ => show win0_1.index t (2 : Fin 3) * 256 + 1 * d.val = d.val; omega

/-- The value block is batch (batch t) of the value array. -/
theorem vblk_apply (c : Dev nD) (t : Fin cfg0.N) (k : Fin 512) (d : Fin 256) :
    vblk m c t (ix3 0 k d) = (m ((c : Thread nD τ).loc main_arg2) : S2x512x256.Idx → EReal) (ix3 (batch t) k d) := by
  obtain ⟨-, -, -, -, ⟨e0, e1, e2⟩, -⟩ := idx_facts t
  show V m c main_arg2 (((cfg0.win 2).blk t).view.emb (ix3 0 k d)) = _
  rw [V_main_arg2]
  refine congrArg (m ((c : Thread nD τ).loc main_arg2) : S2x512x256.Idx → EReal) (funext fun a => Fin.ext ?_)
  match a with
  | ⟨0, _⟩ => show win0_2.index t (0 : Fin 3) * 1 + 1 * (0 : Fin 1).val = win0_12.index t (0 : Fin 3); omega
  | ⟨1, _⟩ => show win0_2.index t (1 : Fin 3) * 512 + 1 * k.val = k.val; omega
  | ⟨2, _⟩ => show win0_2.index t (2 : Fin 3) * 256 + 1 * d.val = d.val; omega

/-- The block of the query half of the first weight is that whole array. -/
theorem wqblk_apply (c : Dev nD) (t : Fin cfg0.N) (d h : Fin 256) :
    wqblk m c t (ix2 d h) = (m ((c : Thread nD τ).loc main_arg4) : S512x256.Idx → EReal) (ix2 (Cert.MlpAttn.rowQ d) h) := by
  obtain ⟨-, -, -, -, -, ⟨e0, e1⟩, -⟩ := idx_facts t
  refine Eq.trans ?_ (V_wq m c d h)
  show V m c main_v0 (((cfg0.win 4).blk t).view.emb (ix2 d h)) = _
  refine congrArg (V m c main_v0 : S256x256.Idx → EReal) (funext fun a => Fin.ext ?_)
  match a with
  | ⟨0, _⟩ => show win0_4.index t (0 : Fin 2) * 256 + 1 * d.val = d.val; omega
  | ⟨1, _⟩ => show win0_4.index t (1 : Fin 2) * 256 + 1 * h.val = h.val; omega

/-- The block of the key half of the first weight is that whole array. -/
theorem wkblk_apply (c : Dev nD) (t : Fin cfg0.N) (d h : Fin 256) :
    wkblk m c t (ix2 d h) = (m ((c : Thread nD τ).loc main_arg4) : S512x256.Idx → EReal) (ix2 (Cert.MlpAttn.rowK d) h) := by
  obtain ⟨-, -, -, -, -, -, ⟨e0, e1⟩, -⟩ := idx_facts t
  refine Eq.trans ?_ (V_wk m c d h)
  show V m c main_v1 (((cfg0.win 5).blk t).view.emb (ix2 d h)) = _
  refine congrArg (V m c main_v1 : S256x256.Idx → EReal) (funext fun a => Fin.ext ?_)
  match a with
  | ⟨0, _⟩ => show win0_5.index t (0 : Fin 2) * 256 + 1 * d.val = d.val; omega
  | ⟨1, _⟩ => show win0_5.index t (1 : Fin 2) * 256 + 1 * h.val = h.val; omega

/-- The second weight's block is the whole second weight. -/
theorem w2blk_apply (c : Dev nD) (t : Fin cfg0.N) (h : Fin 256) (j : Fin 128) :
    w2blk m c t (ix2 h j) = (m ((c : Thread nD τ).loc main_arg6) : S256x128.Idx → EReal) (ix2 h j) := by
  obtain ⟨-, -, -, -, -, -, -, ⟨e0, e1⟩, -⟩ := idx_facts t
  show V m c main_arg6 (((cfg0.win 6).blk t).view.emb (ix2 h j)) = _
  rw [V_main_arg6]
  refine congrArg (m ((c : Thread nD τ).loc main_arg6) : S256x128.Idx → EReal) (funext fun a => Fin.ext ?_)
  match a with
  | ⟨0, _⟩ => show win0_6.index t (0 : Fin 2) * 256 + 1 * h.val = h.val; omega
  | ⟨1, _⟩ => show win0_6.index t (1 : Fin 2) * 128 + 1 * j.val = j.val; omega

/-- The last layer's row block is the third weight's column. -/
theorem w3blk_apply (c : Dev nD) (t : Fin cfg0.N) (j : Fin 128) :
    w3blk m c t (ix2 0 j) = (m ((c : Thread nD τ).loc main_arg8) : S128x1.Idx → EReal) (ix2 j 0) := by
  obtain ⟨-, -, -, -, -, -, -, -, ⟨e0, e1⟩, -⟩ := idx_facts t
  refine Eq.trans ?_ (V_w3 m c j)
  show V m c main_v5 (((cfg0.win 7).blk t).view.emb (ix2 0 j)) = _
  refine congrArg (V m c main_v5 : S1x128.Idx → EReal) (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 128 + 1 * j.val = j.val; omega

/-- The first bias's row block is the first bias. -/
theorem b1blk_apply (c : Dev nD) (t : Fin cfg0.N) (h : Fin 256) :
    b1blk m c t (ix2 0 h) = (m ((c : Thread nD τ).loc main_arg5) : S256.Idx → EReal) (ix1 h) := by
  obtain ⟨-, -, -, -, -, -, -, -, -, ⟨e0, e1⟩, -⟩ := idx_facts t
  refine Eq.trans ?_ (V_b1 m c h)
  show V m c main_v2 (((cfg0.win 8).blk t).view.emb (ix2 0 h)) = _
  refine congrArg (V m c main_v2 : S1x256.Idx → EReal) (funext fun a => Fin.ext ?_)
  match a with
  | ⟨0, _⟩ => show win0_8.index t (0 : Fin 2) * 1 + 1 * (0 : Fin 1).val = (0 : Fin 1).val; omega
  | ⟨1, _⟩ => show win0_8.index t (1 : Fin 2) * 256 + 1 * h.val = h.val; omega

/-- The second bias's row block is the second bias. -/
theorem b2blk_apply (c : Dev nD) (t : Fin cfg0.N) (j : Fin 128) :
    b2blk m c t (ix2 0 j) = (m ((c : Thread nD τ).loc main_arg7) : S128.Idx → EReal) (ix1 j) := by
  obtain ⟨-, -, -, -, -, -, -, -, -, -, ⟨e0, e1⟩, -⟩ := idx_facts t
  refine Eq.trans ?_ (V_b2 m c j)
  show V m c main_v3 (((cfg0.win 9).blk t).view.emb (ix2 0 j)) = _
  refine congrArg (V m c main_v3 : S1x128.Idx → EReal) (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 128 + 1 * j.val = j.val; omega

/-- The third bias's block is the third bias. -/
theorem b3blk_apply (c : Dev nD) (t : Fin cfg0.N) :
    b3blk m c t (ix2 0 0) = (m ((c : Thread nD τ).loc main_arg9) : S1.Idx → EReal) (ix1 0) := by
  obtain ⟨-, -, -, -, -, -, -, -, -, -, -, ⟨e0, e1⟩, -⟩ := idx_facts t
  refine Eq.trans ?_ (V_b3 m c)
  show V m c main_v4 (((cfg0.win 10).blk t).view.emb (ix2 0 0)) = _
  refine congrArg (V m c main_v4 : S1x1.Idx → EReal) (funext fun a => Fin.ext ?_)
  match a with
  | ⟨0, _⟩ => show win0_10.index t (0 : Fin 2) * 1 + 1 * (0 : Fin 1).val = (0 : Fin 1).val; omega
  | ⟨1, _⟩ => show win0_10.index t (1 : Fin 2) * 1 + 1 * (0 : Fin 1).val = (0 : Fin 1).val; omega

/-! ## What a point writes back is its block of the specification's arrays -/

/-- The specification's weights and attended values of the arguments. -/
abbrev attnOf (c : Dev nD) : S2x512x512.Idx → EReal :=
  Cert.MlpAttn.attn (m ((c : Thread nD τ).loc main_arg0)) (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
abbrev outOf (c : Dev nD) : S2x512x256.Idx → EReal :=
  Cert.MlpAttn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- Row r of grid point t's weights is row (row t r) of batch (batch t) of the specification's weights. -/
theorem row_attn (c : Dev nD) (t : Fin cfg0.N) (r : Fin 128) :
    Cert.KernelIdeal.Pieces.blkAttn (qblk m c t) (kblk m c t) (mblk m c t) (wqblk m c t) (wkblk m c t) (w2blk m c t) (w3blk m c t) (b1blk m c t) (b2blk m c t) (b3blk m c t) r
      = fun k => attnOf m c (ix3 (batch t) (row t r) k) :=
  blkAttn_eq _ _ _ _ _ _ _ _ _ (qblk m c t) (kblk m c t) (mblk m c t) (wqblk m c t) (wkblk m c t) (w2blk m c t) (w3blk m c t) (b1blk m c t) (b2blk m c t) (b3blk m c t) (batch t) (row t r) r
    (qblk_apply m c t r) (kblk_apply m c t) (mblk_apply m c t r) (wqblk_apply m c t) (wkblk_apply m c t) (w2blk_apply m c t)
    (w3blk_apply m c t) (b1blk_apply m c t) (b2blk_apply m c t) (b3blk_apply m c t)

/-- The specification's attended values at an index (b, q, d), as one row's weighted sum. -/
theorem out_at (Q K V : Cert.MlpAttn.Sseq.Idx → EReal) (M : Cert.MlpAttn.Spair.Idx → BitVec 32) (W1 : Cert.MlpAttn.Sw1.Idx → EReal)
    (B1 : Cert.MlpAttn.Sb1.Idx → EReal) (W2 : Cert.MlpAttn.Sw2.Idx → EReal) (B2 : Cert.MlpAttn.Sb2.Idx → EReal)
    (W3 : Cert.MlpAttn.Sw3.Idx → EReal) (B3 : Cert.MlpAttn.Sb3.Idx → EReal) (b : Fin 2) (q : Fin 512) (d : Fin 256)
    (i : Cert.MlpAttn.Sseq.Idx) (hi : i = ix3 b q d) :
    Cert.MlpAttn.out Q K V M W1 B1 W2 B2 W3 B3 i
      = Cert.MlpAttn.outRow (fun k => Cert.MlpAttn.attn Q K M W1 B1 W2 B2 W3 B3 (ix3 b q k)) (fun k d' => V (ix3 b k d')) d := by
  subst hi; rfl

/-- The place in the weights array of entry y of grid point t's block. -/
theorem emb12 (t : Fin cfg0.N) (y : S1x128x512.Idx) :
    ((cfg0.win 12).blk t).view.emb y = ix3 (batch t) (row t (y 1)) (y 2) := by
  obtain ⟨-, -, -, -, -, -, -, -, -, -, -, -, b0, b1, e2⟩ := idx_facts t
  refine funext fun a => Fin.ext ?_
  have h0 : (y 0).val < 1 := (y 0).isLt
  match a with
  | ⟨0, _⟩ => show win0_12.index t (0 : Fin 3) * 1 + 1 * (y 0).val = win0_12.index t (0 : Fin 3); omega
  | ⟨1, _⟩ => show win0_12.index t (1 : Fin 3) * 128 + 1 * (y 1).val = win0_12.index t (1 : Fin 3) * 128 + (y 1).val; omega
  | ⟨2, _⟩ => show win0_12.index t (2 : Fin 3) * 512 + 1 * (y 2).val = (y 2).val; omega

/-- The place in the output array of entry y of grid point t's block. -/
theorem emb11 (t : Fin cfg0.N) (y : S1x128x256.Idx) :
    ((cfg0.win 11).blk t).view.emb y = ix3 (batch t) (row t (y 1)) (y 2) := by
  obtain ⟨-, -, ⟨e0, e1, e2⟩, -⟩ := idx_facts t
  refine funext fun a => Fin.ext ?_
  have h0 : (y 0).val < 1 := (y 0).isLt
  match a with
  | ⟨0, _⟩ => show win0_11.index t (0 : Fin 3) * 1 + 1 * (y 0).val = win0_12.index t (0 : Fin 3); omega
  | ⟨1, _⟩ => show win0_11.index t (1 : Fin 3) * 128 + 1 * (y 1).val = win0_12.index t (1 : Fin 3) * 128 + (y 1).val; omega
  | ⟨2, _⟩ => show win0_11.index t (2 : Fin 3) * 256 + 1 * (y 2).val = (y 2).val; omega

/-- What grid point t writes back to the weights array is its block of the specification's weights. -/
theorem flushed12_eq (c : Dev nD) (t : Fin cfg0.N) :
    (dats m 0 c).flushed 12 t = ((cfg0.win 12).blk t).view.read (Elt Ideal) (attnOf m c) := by
  rw [Value.flushed12_A]
  refine funext fun (y : S1x128x512.Idx) => ?_
  show out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = attnOf m c (((cfg0.win 12).blk t).view.emb y)
  refine (Cert.KernelIdeal.Pieces.out12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (qblk m c t) (kblk m c t) (vblk m c t) (mblk m c t) (wqblk m c t) (wkblk m c t) (w2blk m c t) (w3blk m c t) (b1blk m c t) (b2blk m c t) (b3blk m c t) y).trans ?_
  refine (congrFun (row_attn m c t (y 1)) (y 2)).trans ?_
  exact congrArg (attnOf m c) (emb12 t y).symm

/-- What grid point t writes back to the output array is its block of the specification's attended values. -/
theorem flushed11_eq (c : Dev nD) (t : Fin cfg0.N) :
    (dats m 0 c).flushed 11 t = ((cfg0.win 11).blk t).view.read (Elt Ideal) (outOf m c) := by
  rw [Value.flushed11_A]
  refine funext fun (y : S1x128x256.Idx) => ?_
  show out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = outOf m c (((cfg0.win 11).blk t).view.emb y)
  refine (Cert.KernelIdeal.Pieces.out11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (qblk m c t) (kblk m c t) (vblk m c t) (mblk m c t) (wqblk m c t) (wkblk m c t) (w2blk m c t) (w3blk m c t) (b1blk m c t) (b2blk m c t) (b3blk m c t) y).trans ?_
  refine Eq.trans ?_ (out_at _ _ _ _ _ _ _ _ _ _ (batch t) (row t (y 1)) (y 2) _ (emb11 t y)).symm
  have ev : (fun (k : Fin 512) (d : Fin 256) => vblk m c t (ix3 0 k d))
      = fun k d => (m ((c : Thread nD τ).loc main_arg2) : S2x512x256.Idx → EReal) (ix3 (batch t) k d) :=
    funext fun k => funext fun d => vblk_apply m c t k d
  rw [row_attn m c t (y 1), ev]

/-! ## The eight blocks tile both arrays -/

/-- An index of the weights array is in point t's block iff each coordinate is in the block's range on its axis. -/
theorem mem_blk12 (t : Fin cfg0.N) (i : S2x512x512.Idx) :
    i ∈ ((cfg0.win 12).blk t).view.set ↔ ∀ a : Fin 3, win0_12.index t a * S1x128x512.size a ≤ (i a).val ∧ (i a).val < win0_12.index t a * S1x128x512.size a + S1x128x512.size a := by
  show i ∈ ((View.whole main_v6_1).slice (win0_12.rect t)).set ↔ _
  rw [View.set_slice_whole, Rect.mem_set_unit]
  exact Iff.rfl

/-- An index of the output array is in point t's block iff each coordinate is in the block's range on its axis. -/
theorem mem_blk11 (t : Fin cfg0.N) (i : S2x512x256.Idx) :
    i ∈ ((cfg0.win 11).blk t).view.set ↔ ∀ a : Fin 3, win0_11.index t a * S1x128x256.size a ≤ (i a).val ∧ (i a).val < win0_11.index t a * S1x128x256.size a + S1x128x256.size a := by
  show i ∈ ((View.whole main_v6_0).slice (win0_11.rect t)).set ↔ _
  rw [View.set_slice_whole, Rect.mem_set_unit]
  exact Iff.rfl

/-- Row q of batch b of the weights array is in the block of the point at block index (b, q / 128, 0). -/
theorem cover12 (i : S2x512x512.Idx) :
    ∃ t : Fin cfg0.N, (cfg0.win 12).flush t = true ∧ i ∈ ((cfg0.win 12).blk t).view.set := by
  have hi0 : (i 0).val < 2 := (i 0).isLt
  have hi1 : (i 1).val < 512 := (i 1).isLt
  have hi2 : (i 2).val < 512 := (i 2).isLt
  obtain ⟨t, ht⟩ := idx_onto12 ⟨(i 0).val, hi0⟩ ⟨(i 1).val / 128, by omega⟩
  have q0 : win0_12.index t (0 : Fin 3) = (i 0).val := congrFun ht 0
  have q1 : win0_12.index t (1 : Fin 3) = (i 1).val / 128 := congrFun ht 1
  have q2 : win0_12.index t (2 : Fin 3) = 0 := congrFun ht 2
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 128 ≤ (i 1).val ∧ (i 1).val < win0_12.index t (1 : Fin 3) * 128 + 128; omega
  | ⟨2, _⟩ => show win0_12.index t (2 : Fin 3) * 512 ≤ (i 2).val ∧ (i 2).val < win0_12.index t (2 : Fin 3) * 512 + 512; omega

/-- Row q of batch b of the output array is in the block of the point at block index (b, q / 128, 0). -/
theorem cover11 (i : S2x512x256.Idx) :
    ∃ t : Fin cfg0.N, (cfg0.win 11).flush t = true ∧ i ∈ ((cfg0.win 11).blk t).view.set := by
  have hi0 : (i 0).val < 2 := (i 0).isLt
  have hi1 : (i 1).val < 512 := (i 1).isLt
  have hi2 : (i 2).val < 256 := (i 2).isLt
  obtain ⟨t, ht⟩ := idx_onto11 ⟨(i 0).val, hi0⟩ ⟨(i 1).val / 128, by omega⟩
  have q0 : win0_11.index t (0 : Fin 3) = (i 0).val := congrFun ht 0
  have q1 : win0_11.index t (1 : Fin 3) = (i 1).val / 128 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 128 ≤ (i 1).val ∧ (i 1).val < win0_11.index t (1 : Fin 3) * 128 + 128; omega
  | ⟨2, _⟩ => show win0_11.index t (2 : Fin 3) * 256 ≤ (i 2).val ∧ (i 2).val < win0_11.index t (2 : Fin 3) * 256 + 256; omega

/-! ## The result arrays -/

/-- The weights array after the run is the specification's attention weights of the arguments. -/
theorem final12 (c : Dev nD) :
    (dats m 0 c).arrAt 12 cfg0.N
      = Cert.MlpAttn.attn (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) :=
  (dats m 0 c).arrAt_eq_of_cover 12 (attnOf m c) (fun t _ => flushed12_eq m c t) cover12

/-- The output array after the run is the specification's attended values of the arguments. -/
theorem final11 (c : Dev nD) :
    (dats m 0 c).arrAt 11 cfg0.N
      = Cert.MlpAttn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) :=
  (dats m 0 c).arrAt_eq_of_cover 11 (outOf m c) (fun t _ => flushed11_eq m c t) cover11

end Cert.KernelIdeal.Blocks

end
-- ==== Proof.lean ====
/-
  The certificate of the pairwise-MLP attention kernel against its jnp reference, over the extended reals.

  Both programs compute, for every batch b and query row q, the attention weights of the 512 keys — the
  softmax (with the row maximum subtracted) of the masked similarities, the similarity of a pair being a
  three-layer perceptron of the concatenated query and key rows — and the weighted sum of the value rows
  (Proof/Spec.lean).  The kernel does so one block of 128 query rows at a time, the keys in four chunks of
  128 through two scratch arrays; the reference over whole arrays.  They differ only in how sums are
  grouped (the first bias is added before or after the key's projection; the chunks) and in changes of float
  format, none of which an extended real sees, so no finiteness of the inputs is used.

  Proof/RefSpec.lean reads the reference's run as the specification; Proof/PayScore.lean and
  Proof/PayRest.lean read the body's arithmetic at an index; Proof/Pieces.lean reads what one grid point
  leaves in its output blocks through the scratch arrays; Proof/Blocks.lean assembles the blocks into the
  arrays.  The frames are the generated ones; the ideal pass rewrote nothing, so preserves is trivial.
-/
import proofs.«405893_j69303592288275_3_alg».proof.Defs
import proofs.«405893_j69303592288275_3_alg».proof.Proof.Gen.Kernel
import proofs.«405893_j69303592288275_3_alg».proof.Proof.Gen.Kernel.Skeleton
import proofs.«405893_j69303592288275_3_alg».proof.Proof.Gen.Kernel.Launch
import proofs.«405893_j69303592288275_3_alg».proof.Proof.Gen.Kernel.Points
import proofs.«405893_j69303592288275_3_alg».proof.Proof.Gen.Kernel.Frame
import proofs.«405893_j69303592288275_3_alg».proof.Proof.Gen.KernelIdeal
import proofs.«405893_j69303592288275_3_alg».proof.Proof.Gen.KernelIdeal.Skeleton
import proofs.«405893_j69303592288275_3_alg».proof.Proof.Gen.KernelIdeal.Launch
import proofs.«405893_j69303592288275_3_alg».proof.Proof.Gen.KernelIdeal.Points
import proofs.«405893_j69303592288275_3_alg».proof.Proof.Gen.KernelIdeal.Frame
import proofs.«405893_j69303592288275_3_alg».proof.Proof.Gen.ReferenceIdeal
import proofs.«405893_j69303592288275_3_alg».proof.Proof.Gen.Pre_finite_inputs
import proofs.«405893_j69303592288275_3_alg».proof.Proof.Gen.KernelIdeal.Value
import proofs.«405893_j69303592288275_3_alg».proof.Proof.Gen.ReferenceIdeal.Run
import proofs.«405893_j69303592288275_3_alg».proof.Proof.Gen.ReferenceIdeal.Read
import proofs.«405893_j69303592288275_3_alg».proof.Proof.Spec
import proofs.«405893_j69303592288275_3_alg».proof.Proof.RefSpec
import proofs.«405893_j69303592288275_3_alg».proof.Proof.Blocks
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference's frame is its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the ten arguments both programs end with the specification's output and
    attention weights of those arguments. -/
theorem algebraic : Cert.algebraic_KernelIdeal_ReferenceIdeal := by
  intro m ρ m' ρ' _ hagree
  refine ⟨fun c => Cert.MlpAttn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.MlpAttn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Blocks.final11 m c), (h c).2.1.trans (Cert.KernelIdeal.Blocks.final12 m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9⟩ := hagree c
      rw [(h c).1, Cert.ReferenceIdeal.Read.val_main_v37_eq, Cert.ReferenceIdeal.RefSpec.ref_out, e0, e1, e2, e3, e4, e5, e6, e7, e8, e9]
    · obtain ⟨e0, e1, e2, e3, e4, e5, e6, e7, e8, e9⟩ := hagree c
      rw [(h c).2.1, Cert.ReferenceIdeal.Read.val_main_v36_eq, Cert.ReferenceIdeal.RefSpec.ref_attn, e0, e1, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
